-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S2x200000 : Shape := ⟨2, ![2, 200000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S2x200000 : S_.BroadcastsInDim S2x200000 (![] : Fin 0 → Fin S2x200000.rank)
  reducesTo_S2x200000_S_d0_1 : S2x200000.ReducesTo [0, 1] S_

variable [Facts]

def fn_part2 {F : FTy → Type} [FloatOps F] (main_arg1 : IVec S2x200000 32) (main_v32 : IVec S_ 1) (main_c_12 : IVec S_ 32) : IVec S_ 1 :=
  let main_v33 : IVec S2x200000 32 := broadcastInDim S2x200000 ![] bcast_S_S2x200000 main_c_12
  let main_v34 : IVec S2x200000 1 := cmpi .slt main_arg1 main_v33
  let main_c_13 : IVec S_ 1 := constantI S_ 1 1#1
  let main_v35 : IVec S_ 1 := (fun x v => Host.reduce IntOp.andi x v reducesTo_S2x200000_S_d0_1 h_S_) main_v34 main_c_13
  let main_v36 : IVec S_ 1 := andi main_v32 main_v35
  main_v36

def fn_part1 {F : FTy → Type} [FloatOps F] (main_arg1 : IVec S2x200000 32) (main_arg5 : FVec F S128 .f32) (main_arg6 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S2x200000 32 := broadcastInDim S2x200000 ![] bcast_S_S2x200000 main_c_10
  let main_v30 : IVec S2x200000 1 := cmpi .sge main_arg1 main_v29
  let main_c_11 : IVec S_ 1 := constantI S_ 1 1#1
  let main_v31 : IVec S_ 1 := (fun x v => Host.reduce IntOp.andi x v reducesTo_S2x200000_S_d0_1 h_S_) main_v30 main_c_11
  let main_v32 : IVec S_ 1 := andi main_v28 main_v31
  let main_c_12 : IVec S_ 32 := constantI S_ 32 1024#32
  fn_part2 (F := F) main_arg1 main_v32 main_c_12

def fn {F : FTy → Type} [FloatOps F] (main_arg0 : FVec F S1024x128 .f32) (main_arg1 : IVec S2x200000 32) (main_arg2 : FVec F S128x128 .f32) (main_arg3 : FVec F S128 .f32) (main_arg4 : FVec F S128x128 .f32) (main_arg5 : FVec F S128 .f32) (main_arg6 : FVec F S1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_v13 main_v16
-- ==== Kernel.lean ====
abbrev S1024x128 : Shape := ⟨2, ![1024, 128]⟩
abbrev S2x200000 : Shape := ⟨2, ![2, 200000]⟩
abbrev S128x128 : Shape := ⟨2, ![128, 128]⟩
abbrev S128 : Shape := ⟨1, ![128]⟩
abbrev S1 : Shape := ⟨1, ![1]⟩
abbrev S1x128 : Shape := ⟨2, ![1, 128]⟩
abbrev S128x1024 : Shape := ⟨2, ![128, 1024]⟩
abbrev S1x200000 : Shape := ⟨2, ![1, 200000]⟩
abbrev S200000 : Shape := ⟨1, ![200000]⟩
abbrev S_ : Shape := ⟨0, ![]⟩
abbrev S200704 : Shape := ⟨1, ![200704]⟩
abbrev S1x200704 : Shape := ⟨2, ![1, 200704]⟩
abbrev S1x1 : Shape := ⟨2, ![1, 1]⟩
abbrev S1x4096 : Shape := ⟨2, ![1, 4096]⟩
abbrev S1x8192 : Shape := ⟨2, ![1, 8192]⟩
abbrev S1024x1 : Shape := ⟨2, ![1024, 1]⟩
abbrev S1024x8192 : Shape := ⟨2, ![1024, 8192]⟩
abbrev S128x8192 : Shape := ⟨2, ![128, 8192]⟩
abbrev S128x4096 : Shape := ⟨2, ![128, 4096]⟩
abbrev S4096 : Shape := ⟨1, ![4096]⟩

abbrev nBuf : Space → Nat
  | .hbm => 26
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S2x200000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1, .f32⟩
  | .hbm, ⟨7, _⟩ => ⟨S1x128, .f32⟩
  | .hbm, ⟨8, _⟩ => ⟨S1x128, .f32⟩
  | .hbm, ⟨9, _⟩ => ⟨S128x1024, .bf16⟩
  | .hbm, ⟨10, _⟩ => ⟨S1x200000, .i32⟩
  | .hbm, ⟨11, _⟩ => ⟨S200000, .i32⟩
  | .hbm, ⟨12, _⟩ => ⟨S1x200000, .i32⟩
  | .hbm, ⟨13, _⟩ => ⟨S200000, .i32⟩
  | .hbm, ⟨14, _⟩ => ⟨S_, .i32⟩
  | .hbm, ⟨15, _⟩ => ⟨S_, .i32⟩
  | .hbm, ⟨16, _⟩ => ⟨S200704, .i32⟩
  | .hbm, ⟨17, _⟩ => ⟨S1x200704, .i32⟩
  | .hbm, ⟨18, _⟩ => ⟨S_, .i32⟩
  | .hbm, ⟨19, _⟩ => ⟨S_, .i32⟩
  | .hbm, ⟨20, _⟩ => ⟨S200704, .i32⟩
  | .hbm, ⟨21, _⟩ => ⟨S1x200704, .i32⟩
  | .hbm, ⟨22, _⟩ => ⟨S1x1, .f32⟩
  | .hbm, ⟨23, _⟩ => ⟨S1x200704, .f32⟩
  | .hbm, ⟨24, _⟩ => ⟨S1x200000, .f32⟩
  | .hbm, ⟨25, _⟩ => ⟨S200000, .f32⟩
  | .local _ .vmem, ⟨0, _⟩ => ⟨S1024x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x1024, .bf16⟩
  | .local _ .vmem, ⟨6, _⟩ => ⟨S128x1024, .bf16⟩
  | .local _ .vmem, ⟨7, _⟩ => ⟨S1x4096, .i32⟩
  | .local _ .vmem, ⟨8, _⟩ => ⟨S1x4096, .i32⟩
  | .local _ .vmem, ⟨9, _⟩ => ⟨S1x4096, .i32⟩
  | .local _ .vmem, ⟨10, _⟩ => ⟨S1x4096, .i32⟩
  | .local _ .vmem, ⟨11, _⟩ => ⟨S1x1, .f32⟩
  | .local _ .vmem, ⟨12, _⟩ => ⟨S1x4096, .f32⟩
  | .local _ .vmem, ⟨13, _⟩ => ⟨S1x4096, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  reduces_S1024x128_S128 : S1024x128.Reduces [0] S128
  broadcasts_S1x128_S1024x128 : S1x128.Broadcasts S1024x128
  transposes_S1024x128_p1_0_S128x1024 : S1024x128.Transposes [1, 0] S128x1024
  inb_S128x1024_S128x1024_0_0 : ∀ a, (![0, 0] : Fin 2 → Nat) a + S128x1024.size a ≤ S128x1024.size a
  h_S128x1024 : 0 < S128x1024.numel
  packedbf16_S128x1024_S128x1024_0_0 : (Rect.unit (s := S128x1024) ![0, 0] S128x1024.size inb_S128x1024_S128x1024_0_0).PackedRows (EltTy.packing .bf16)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  pads_S200000_S200704_07040 : S200000.Pads (![0] : Fin 1 → Nat) ![704] ![0] S200704
  h_S_ : 0 < S_.numel
  shapeCasts_S200704_S1x200704 : S200704.ShapeCasts S1x200704
  shapeCasts_S1_S1x1 : S1.ShapeCasts S1x1
  shapeCasts_S128x1024_S128x1024 : S128x1024.ShapeCasts S128x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  concatenates_S1x4096_S1x4096_S1x8192_d1 : Shape.Concatenates [S1x4096, S1x4096] S1x8192 1
  iota_S1024x1_d0_w32 : S1024x1.Iotas .tc 32 [0]
  broadcasts_S1024x1_S1024x8192 : S1024x1.Broadcasts S1024x8192
  broadcasts_S1x8192_S1024x8192 : S1x8192.Broadcasts S1024x8192
  natLt_1_32 : 1 < 32
  slices_S128x8192_o0_0_S128x4096 : S128x8192.Slices ![0, 0] S128x4096
  slices_S128x8192_o0_4096_S128x4096 : S128x8192.Slices ![0, 4096] S128x4096
  reduces_S128x4096_S4096 : S128x4096.Reduces [0] S4096
  shapeCasts_S4096_S1x4096 : S4096.ShapeCasts S1x4096
  slices_S1x200704_S1x200000_0_0 : S1x200704.Slices ![0, 0] S1x200000
  dot_S1024x128_S128x128_S1024x128_1_0_0_1_n_n_wf : DotDims.WF S1024x128 S128x128 S1024x128 [1] [0] [0] [1] [] []
  dot_S128x1024_S1024x8192_S128x8192_1_0_0_1_n_n_wf : DotDims.WF S128x1024 S1024x8192 S128x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .bf16 = 32 ∨ (Rect.block (s := S128x1024) S128x1024.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .bf16 = 32 ∨ (Rect.block (s := S128x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x200704.size a
  hwx1_1 : ∀ i : grid1.Coords, EltTy.bits .i32 = 32 ∨ (Rect.block (s := S1x200704) S1x4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x200704.size a
  hwx1_2 : ∀ i : grid1.Coords, EltTy.bits .i32 = 32 ∨ (Rect.block (s := S1x200704) S1x4096.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x200704.size a
  hwx1_4 : ∀ i : grid1.Coords, EltTy.bits .f32 = 32 ∨ (Rect.block (s := S1x200704) S1x4096.size (cc1_transform_4 i) (hinb1_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S128x1024_S1024x8192_S128x8192_1_0_0_1_n_n : DotDims S128x1024 S1024x8192 S128x8192 where
  lhsContracting := [1]
  rhsContracting := [0]
  lhsNonContracting := [0]
  rhsNonContracting := [1]
  lhsBatch := []
  rhsBatch := []
  wf := dot_S128x1024_S1024x8192_S128x8192_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x128 : Shape := ⟨2, ![1024, 128]⟩
abbrev S2x200000 : Shape := ⟨2, ![2, 200000]⟩
abbrev S128x128 : Shape := ⟨2, ![128, 128]⟩
abbrev S128 : Shape := ⟨1, ![128]⟩
abbrev S1 : Shape := ⟨1, ![1]⟩
abbrev S1024 : Shape := ⟨1, ![1024]⟩
abbrev S1024x1024 : Shape := ⟨2, ![1024, 1024]⟩
abbrev S1048576 : Shape := ⟨1, ![1048576]⟩
abbrev S1x1024 : Shape := ⟨2, ![1, 1024]⟩
abbrev S_ : Shape := ⟨0, ![]⟩
abbrev S1048576x1 : Shape := ⟨2, ![1048576, 1]⟩
abbrev S1048576x128 : Shape := ⟨2, ![1048576, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 147
  | .vmem => 0
  | .smem => 0
  | _ => 0

abbrev hbmTy0_0 (i : Nat) : BufTy := match i % 128 with
  | 0 => ⟨S1024x128, .f32⟩
  | 1 => ⟨S2x200000, .i32⟩
  | 2 => ⟨S128x128, .f32⟩
  | 3 => ⟨S128, .f32⟩
  | 4 => ⟨S128x128, .f32⟩
  | 5 => ⟨S128, .f32⟩
  | 6 => ⟨S1, .f32⟩
  | 7 => ⟨S1024, .i32⟩
  | 8 => ⟨S1024x1024, .i32⟩
  | 9 => ⟨S1048576, .i32⟩
  | 10 => ⟨S1024, .i32⟩
  | 11 => ⟨S1x1024, .i32⟩
  | 12 => ⟨S1024x1024, .i32⟩
  | 13 => ⟨S1048576, .i32⟩
  | 14 => ⟨S1024x128, .f32⟩
  | 15 => ⟨S_, .f32⟩
  | 16 => ⟨S1048576, .f32⟩
  | 17 => ⟨S_, .f32⟩
  | 18 => ⟨S1024, .f32⟩
  | 19 => ⟨S1048576x1, .i32⟩
  | 20 => ⟨S1024, .f32⟩
  | 21 => ⟨S1024, .f32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S1048576x1, .i32⟩
  | 30 => ⟨S1048576, .f32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S1048576x1, .i32⟩
  | 39 => ⟨S1048576, .f32⟩
  | 40 => ⟨S1048576, .f32⟩
  | 41 => ⟨S_, .i32⟩
  | 42 => ⟨S1048576, .i32⟩
  | 43 => ⟨S1048576, .i1⟩
  | 44 => ⟨S_, .i32⟩
  | 45 => ⟨S1048576, .i32⟩
  | 46 => ⟨S1048576, .i32⟩
  | 47 => ⟨S1048576, .i32⟩
  | 48 => ⟨S1048576x1, .i32⟩
  | 49 => ⟨S1048576x128, .f32⟩
  | 50 => ⟨S1048576x1, .f32⟩
  | 51 => ⟨S1048576x128, .f32⟩
  | 52 => ⟨S1048576x128, .f32⟩
  | 53 => ⟨S_, .f32⟩
  | 54 => ⟨S1024x128, .f32⟩
  | 55 => ⟨S1048576x1, .i32⟩
  | 56 => ⟨S1024x128, .f32⟩
  | 57 => ⟨S1x128, .f32⟩
  | 58 => ⟨S1024x128, .f32⟩
  | 59 => ⟨S1024x128, .f32⟩
  | 60 => ⟨S1024x128, .f32⟩
  | 61 => ⟨S_, .f32⟩
  | 62 => ⟨S1024x128, .f32⟩
  | 63 => ⟨S1024x128, .f32⟩
  | 64 => ⟨S1024x128, .f32⟩
  | 65 => ⟨S_, .f32⟩
  | 66 => ⟨S1048576, .f32⟩
  | 67 => ⟨S_, .f32⟩
  | 68 => ⟨S1024, .f32⟩
  | 69 => ⟨S1048576x1, .i32⟩
  | 70 => ⟨S1024, .f32⟩
  | 71 => ⟨S1024, .f32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S1048576, .f32⟩
  | 81 => ⟨S_, .i32⟩
  | 82 => ⟨S1048576, .i32⟩
  | 83 => ⟨S1048576, .i1⟩
  | 84 => ⟨S_, .i32⟩
  | 85 => ⟨S1048576, .i32⟩
  | 86 => ⟨S1048576, .i32⟩
  | 87 => ⟨S1048576, .i32⟩
  | 88 => ⟨S1048576x1, .i32⟩
  | 89 => ⟨S1048576, .f32⟩
  | 90 => ⟨S1048576, .f32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S1048576x1, .i32⟩
  | 99 => ⟨S1048576x128, .f32⟩
  | 100 => ⟨S1048576x1, .f32⟩
  | 101 => ⟨S1048576x128, .f32⟩
  | 102 => ⟨S1048576x128, .f32⟩
  | 103 => ⟨S_, .f32⟩
  | 104 => ⟨S1024x128, .f32⟩
  | 105 => ⟨S1048576x1, .i32⟩
  | 106 => ⟨S1024x128, .f32⟩
  | 107 => ⟨S1x128, .f32⟩
  | 108 => ⟨S1024x128, .f32⟩
  | 109 => ⟨S1024x128, .f32⟩
  | 110 => ⟨S1024x128, .f32⟩
  | 111 => ⟨S1x200000, .i32⟩
  | 112 => ⟨S200000, .i32⟩
  | 113 => ⟨S_, .i32⟩
  | 114 => ⟨S200000, .i32⟩
  | 115 => ⟨S200000, .i1⟩
  | 116 => ⟨S_, .i32⟩
  | 117 => ⟨S200000, .i32⟩
  | 118 => ⟨S200000, .i32⟩
  | 119 => ⟨S200000, .i32⟩
  | 120 => ⟨S200000x1, .i32⟩
  | 121 => ⟨S200000x128, .f32⟩
  | 122 => ⟨S1x200000, .i32⟩
  | 123 => ⟨S200000, .i32⟩
  | 124 => ⟨S_, .i32⟩
  | 125 => ⟨S200000, .i32⟩
  | 126 => ⟨S200000, .i1⟩
  | 127 => ⟨S_, .i32⟩
  | _ => ⟨S1024x128, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S200000x128, .f32⟩
  | 5 => ⟨S200000x128, .f32⟩
  | 6 => ⟨S_, .f32⟩
  | 7 => ⟨S200000, .f32⟩
  | 8 => ⟨S_, .f32⟩
  | 9 => ⟨S200000, .f32⟩
  | 10 => ⟨S200000, .f32⟩
  | 11 => ⟨S200000, .f32⟩
  | 12 => ⟨S200000, .f32⟩
  | 13 => ⟨S_, .f32⟩
  | 14 => ⟨S200000, .f32⟩
  | 15 => ⟨S200000, .f32⟩
  | 16 => ⟨S_, .f32⟩
  | 17 => ⟨S200000, .f32⟩
  | 18 => ⟨S200000, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_cst : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_16 : Ref sig .tc := ⟨.hbm, 113, rfl⟩
abbrev main_v86 : Ref sig .tc := ⟨.hbm, 114, rfl⟩
abbrev main_v87 : Ref sig .tc := ⟨.hbm, 115, rfl⟩
abbrev main_c_17 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_18 : Ref sig .tc := ⟨.hbm, 124, rfl⟩
abbrev main_v95 : Ref sig .tc := ⟨.hbm, 125, rfl⟩
abbrev main_v96 : Ref sig .tc := ⟨.hbm, 126, rfl⟩
abbrev main_c_19 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_20 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_21 : Ref sig .tc := ⟨.hbm, 141, rfl⟩
abbrev main_v109 : Ref sig .tc := ⟨.hbm, 142, rfl⟩
abbrev main_v110 : Ref sig .tc := ⟨.hbm, 143, rfl⟩
abbrev main_cst_22 : Ref sig .tc := ⟨.hbm, 144, rfl⟩
abbrev main_v111 : Ref sig .tc := ⟨.hbm, 145, rfl⟩
abbrev main_v112 : Ref sig .tc := ⟨.hbm, 146, rfl⟩

abbrev nD : Nat := 1
abbrev τ : Topo := Topo.v7x

variable {F : FTy → Type} [FloatOps F]

class Facts₀ : Prop where
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S_S1048576 : S_.BroadcastsInDim S1048576 (![] : Fin 0 → Fin S1048576.rank)
  bcast_S_S1024 : S_.BroadcastsInDim S1024 (![] : Fin 0 → Fin S1024.rank)
  bcast_S1048576_S1048576x1_0 : S1048576.BroadcastsInDim S1048576x1 (![0] : Fin 1 → Fin S1048576x1.rank)
  bcast_S1048576x1_S1048576x128_0_1 : S1048576x1.BroadcastsInDim S1048576x128 (![0, 1] : Fin 2 → Fin S1048576x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  shapeCasts_S1_S_ : S1.ShapeCasts S_
  dot_S1024x128_S128x128_S1024x128_1_0_0_1_n_n_wf : DotDims.WF S1024x128 S128x128 S1024x128 [1] [0] [0] [1] [] []
  scatter_S1024_S1048576x1_S1048576_n_0_0_1_wf : ScatterDims.WF S1024 S1048576x1 S1048576 [] [0] [0] 1
  gather_S1024_S1048576x1_S1048576_n_0_n_n_0_1_1_wf : GatherDims.WF S1024 S1048576x1 S1048576 [] [0] [] [0] [] 1 ![1]
  gather_S1024x128_S1048576x1_S1048576x128_1_0_n_n_0_1_1128_wf : GatherDims.WF S1024x128 S1048576x1 S1048576x128 [1] [0] [] [0] [] 1 ![1, 128]
  scatter_S1024x128_S1048576x1_S1048576x128_1_0_0_1_wf : ScatterDims.WF S1024x128 S1048576x1 S1048576x128 [1] [0] [0] 1
  gather_S1024x128_S200000x1_S200000x128_1_0_n_n_0_1_1128_wf : GatherDims.WF S1024x128 S200000x1 S200000x128 [1] [0] [] [0] [] 1 ![1, 128]

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def gather_S1024_S1048576x1_S1048576_n_0_n_n_0_1_1 : GatherDims S1024 S1048576x1 S1048576 where
  offsetDims := []
  collapsedSliceDims := [0]
  operandBatchingDims := []
  startIndicesBatchingDims := []
  startIndexMap := [0]
  indexVectorDim := 1
  sliceSizes := ![1]
  wf := gather_S1024_S1048576x1_S1048576_n_0_n_n_0_1_1_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf
def gather_S1024x128_S200000x1_S200000x128_1_0_n_n_0_1_1128 : GatherDims S1024x128 S200000x1 S200000x128 where
  offsetDims := [1]
  collapsedSliceDims := [0]
  operandBatchingDims := []
  startIndicesBatchingDims := []
  startIndexMap := [0]
  indexVectorDim := 1
  sliceSizes := ![1, 128]
  wf := gather_S1024x128_S200000x1_S200000x128_1_0_n_n_0_1_1128_wf

class Facts : Prop extends Facts₀ where

variable [Facts]
-- ==== Proof.Spec.lean ====
/-
  The common value of the two programs, on the extended reals.

  A two-layer graph convolution over the COMPLETE graph on 1024 nodes with self loops (every ordered pair is an edge).
  Every node has degree 1024, so the symmetric normalisation of every edge is (1/√1024)·(1/√1024) = 2⁻¹⁰, and the
  aggregate at a node is the same for every node: the column sum of the projected features, scaled by 2⁻¹⁰.
  A layer is therefore   conv x W b (d) = (Σ_i Σ_k x i k · W k d) · 2⁻¹⁰ + b d,
  the hidden features are   hid = max (conv z W₁ b₁ + z) 0,   the final ones   feat = conv hid W₂ b₂ + hid,
  and an edge (s, t) is scored by the logistic function of   Σ_d feat s d · feat t d + bias.
-/
import Idealize.ShloMosaic.PureOps.Ideal
import Idealize.ShloMosaic.Lib.ValueIdx

noncomputable section

namespace Cert.Spec

open Idealize.ShloMosaic Idealize.ShloMosaic.ValueIdx

/-- 2⁻¹⁰ as the binary32 word both programs meet it at. -/
def scale : EReal := Ideal.ofBits .f32 0x3A800000#32

/-- Column `d` of a layer's aggregate plus bias: the column sum of `x W`, scaled, plus `b d`. -/
def conv (x : Fin 1024 → Fin 128 → EReal) (W : Fin 128 → Fin 128 → EReal) (b : Fin 128 → EReal) (d : Fin 128) : EReal :=
  (∑ i : Fin 1024, ∑ k : Fin 128, x i k * W k d) * scale + b d

/-- The hidden features: first layer, residual, positive part. -/
def hid (z : Fin 1024 → Fin 128 → EReal) (W1 : Fin 128 → Fin 128 → EReal) (b1 : Fin 128 → EReal)
    (i : Fin 1024) (d : Fin 128) : EReal :=
  max (conv z W1 b1 d + z i d) 0

/-- The final node features: second layer over the hidden ones, residual. -/
def feat (z : Fin 1024 → Fin 128 → EReal) (W1 : Fin 128 → Fin 128 → EReal) (b1 : Fin 128 → EReal)
    (W2 : Fin 128 → Fin 128 → EReal) (b2 : Fin 128 → EReal) (i : Fin 1024) (d : Fin 128) : EReal :=
  conv (hid z W1 b1) W2 b2 d + hid z W1 b1 i d

/-- The node a 32-bit word names: its signed value, cut into 0 … 1023. -/
def node (w : BitVec 32) : Fin 1024 := ⟨min w.toInt.toNat 1023, by omega⟩

/-- The score of the edge (s, t) over node features `h`. -/
def score (h : Fin 1024 → Fin 128 → EReal) (bias : EReal) (s t : Fin 1024) : EReal :=
  Ideal.logistic ((∑ d : Fin 128, h s d * h t d) + bias)

end Cert.Spec

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.KerNodes.lean ====
/-
  The first kernel's stored block, read index by index: the transposed final node features of the specification.

  The kernel's arithmetic is two copies of one layer — project the node block by the weight matrix, sum the columns
  over all 1024 nodes, scale by 2⁻¹⁰, add the bias row, spread the row over the nodes, add the residual — with the
  positive part between them, then a transposition. Each non-pointwise operation is read at an index by one small
  lemma; the layer is read once and used twice.
-/
import proofs.«402322_j26242250179179_3_alg».proof.Proof.Gen.KernelIdeal.Skeleton
import proofs.«402322_j26242250179179_3_alg».proof.Proof.Spec
import proofs.«402322_j26242250179179_3_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KerNodes

open Idealize.ShloMosaic Idealize.ShloMosaic.ValueIdx Cert.KernelIdeal Cert.KernelIdeal.Gen

/-! ## The non-pointwise operations at an index -/

/-- The product's dimension numbers are the plain ones: contract axis 1 of the left with axis 0 of the right. -/
theorem dot_plain : dot_S1024x128_S128x128_S1024x128_1_0_0_1_n_n = DotDims.plain 1024 128 128 := rfl

/-- The column sum of a node block at column `c`: the sum over the 1024 nodes of the block's entry `(i, c)`. -/
theorem colsum_apply (v : FVec Ideal S1024x128 .f32) (c : Fin 128) :
    multiReduction (F := Ideal) .add [0] S128 v 0x00000000#32 reduces_S1024x128_S128 (.inl rfl) rfl (ix1 c)
      = ∑ i : Fin 1024, v (ix2 i c) := by
  refine (Ideal.multiReduction_add_single v _ reduces_S1024x128_S128 (.inl rfl) rfl (ix1 c)).trans ?_
  refine Finset.sum_congr rfl fun i _ => congrArg v ?_
  funext a
  match a with
  | ⟨0, _⟩ => rfl
  | ⟨1, _⟩ => rfl

/-- A 128-vector seen as a 1 × 128 row: entry `(0, c)` is entry `c` (same row-major position). -/
theorem row_apply (v : FVec Ideal S128 .f32) (c : Fin 128) :
    shapeCast S1x128 v shapeCasts_S128_S1x128 (ix2 (0 : Fin 1) c) = v (ix1 c) := by
  refine shapeCast_apply v shapeCasts_S128_S1x128 (ix2 (0 : Fin 1) c) (ix1 c) ?_
  rw [Shape.rowMajor_val_two, Shape.rowMajor_val_one]
  show c.val = 0 * 128 + c.val
  omega

/-- A 1 × 128 row spread over the 1024 nodes: entry `(i, c)` is the row's entry `(0, c)`. -/
theorem bcast_apply (r : FVec Ideal S1x128 .f32) (i : Fin 1024) (c : Fin 128) :
    broadcastTo S1024x128 r broadcasts_S1x128_S1024x128 (ix2 i c) = r (ix2 (0 : Fin 1) c) := by
  refine broadcastTo_apply r broadcasts_S1x128_S1024x128 (ix2 i c) (ix2 (0 : Fin 1) c) fun a => ?_
  match a with
  | ⟨0, _⟩ => rfl
  | ⟨1, _⟩ => rfl

/-- The transposed node block: entry `(d, n)` is the block's entry `(n, d)`. -/
theorem transp_apply (v : FVec Ideal S1024x128 .f32) (d : Fin 128) (n : Fin 1024) :
    transpose S128x1024 [1, 0] v transposes_S1024x128_p1_0_S128x1024 (ix2 d n) = v (ix2 n d) := by
  refine transpose_apply [1, 0] v transposes_S1024x128_p1_0_S128x1024 (ix2 d n) (ix2 n d) fun b => ?_
  match b with
  | ⟨0, _⟩ => rfl
  | ⟨1, _⟩ => rfl

/-- The projection into the zero block: entry `(i, c)` is `Σ_k x (i, k) · W (k, c)`. -/
theorem mm_apply (x : FVec Ideal S1024x128 .bf16) (W : FVec Ideal S128x128 .bf16) (i : Fin 1024) (c : Fin 128) :
    matmul (F := Ideal) dot_S1024x128_S128x128_S1024x128_1_0_0_1_n_n none x W (constant S1024x128 .f32 0x00000000#32) (ix2 i c)
      = ∑ k : Fin 128, x (ix2 i k) * W (ix2 k c) :=
  Cert.Lib.matmul_plain_zero_apply 1024 128 128 none x W (ix2 i c)

/-! ## One layer -/

/-- One layer over the node block: project, sum the columns, scale, add the bias row, spread over the nodes, add the
    residual. -/
def layerV (x : FVec Ideal S1024x128 .f32) (W : FVec Ideal S128x128 .f32) (b : FVec Ideal S1x128 .f32) :
    FVec Ideal S1024x128 .f32 :=
  addf (broadcastTo S1024x128
      (shapeCast S1x128
        (addf
          (mulf
            (shapeCast S1x128
              (multiReduction .add [0] S128
                (matmul dot_S1024x128_S128x128_S1024x128_1_0_0_1_n_n none (truncf .bf16 x bitsLt_bf16_f32)
                  (truncf .bf16 W bitsLt_bf16_f32) (constant S1024x128 .f32 0x00000000#32))
                0x00000000#32 reduces_S1024x128_S128 (.inl rfl) rfl)
              shapeCasts_S128_S1x128)
            (broadcast S1x128 (Scalar.ofBits .f32 0x3A800000#32)))
          (shapeCast S1x128 b shapeCasts_S1x128_S1x128))
        shapeCasts_S1x128_S1x128)
      broadcasts_S1x128_S1024x128) x

/-- A layer at node `i` and column `c`: the specification's aggregate-plus-bias at `c`, plus the residual at `(i, c)`.
    The format changes are the identity on the extended reals, the same-shape casts are the identity, and the scalar
    word is the specification's 2⁻¹⁰. -/
theorem layer_apply (x : FVec Ideal S1024x128 .f32) (W : FVec Ideal S128x128 .f32) (b : FVec Ideal S1x128 .f32)
    (i : Fin 1024) (c : Fin 128) :
    layerV x W b (ix2 i c)
      = Cert.Spec.conv (fun i k => x (ix2 i k)) (fun k d => W (ix2 k d)) (fun d => b (ix2 (0 : Fin 1) d)) c + x (ix2 i c) := by
  unfold layerV
  rw [addf_apply, bcast_apply, shapeCast_self, addf_apply, mulf_apply, row_apply, colsum_apply, shapeCast_self]
  simp only [mm_apply, truncf_apply, broadcast_apply]
  rfl

/-! ## The two layers -/

/-- The stored block is: layer, positive part, layer, transposition (and a format change). -/
theorem pay_eq (z : Vec Ideal S1024x128 .f32) (W1 : Vec Ideal S128x128 .f32) (b1 : Vec Ideal S1x128 .f32)
    (W2 : Vec Ideal S128x128 .f32) (b2 : Vec Ideal S1x128 .f32) :
    k0_pay1 (F := Ideal) z W1 b1 W2 b2
      = truncf .bf16 (transpose S128x1024 [1, 0]
          (layerV (maximumf (layerV z W1 b1) (broadcast S1024x128 (Scalar.ofBits .f32 0x00000000#32))) W2 b2)
          transposes_S1024x128_p1_0_S128x1024) bitsLt_bf16_f32 := rfl

/-- The hidden block at a node and a column is the specification's hidden feature: the zero word is `0`. -/
theorem hid_apply (z : FVec Ideal S1024x128 .f32) (W1 : FVec Ideal S128x128 .f32) (b1 : FVec Ideal S1x128 .f32)
    (i : Fin 1024) (c : Fin 128) :
    maximumf (layerV z W1 b1) (broadcast S1024x128 (Scalar.ofBits .f32 0x00000000#32)) (ix2 i c)
      = Cert.Spec.hid (fun i k => z (ix2 i k)) (fun k d => W1 (ix2 k d)) (fun d => b1 (ix2 (0 : Fin 1) d)) i c := by
  rw [maximumf_apply, layer_apply, broadcast_apply]
  show max _ (Ideal.ofBits .f32 0x00000000#32) = _
  rw [Ideal.ofBits_zero_f32]
  rfl

/-- The block the first kernel stores, at row `d` (a feature column) and column `n` (a node). -/
theorem ker_feat (z : Vec Ideal S1024x128 .f32) (W1 : Vec Ideal S128x128 .f32) (b1 : Vec Ideal S1x128 .f32)
    (W2 : Vec Ideal S128x128 .f32) (b2 : Vec Ideal S1x128 .f32) (d : Fin 128) (n : Fin 1024) :
    k0_pay1 (F := Ideal) z W1 b1 W2 b2 (ix2 d n)
      = Cert.Spec.feat (fun i k => z (ix2 i k)) (fun k d => W1 (ix2 k d)) (fun d => b1 (ix2 (0 : Fin 1) d))
          (fun k d => W2 (ix2 k d)) (fun d => b2 (ix2 (0 : Fin 1) d)) n d := by
  rw [pay_eq, truncf_apply, transp_apply, layer_apply]
  simp only [hid_apply]
  rfl

end Cert.KerNodes

end
-- ==== Proof.KerScore.lean ====
/-
  The second kernel's stored block, read index by index: a product with a one-hot matrix picks the two end points' columns
  of the transposed feature table, and the block holds the score of each edge of the block.
-/
import proofs.«402322_j26242250179179_3_alg».proof.Proof.Gen.KernelIdeal.Skeleton
import proofs.«402322_j26242250179179_3_alg».proof.Proof.Spec
import proofs.«402322_j26242250179179_3_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KerScore

open Idealize.ShloMosaic Idealize.ShloMosaic.ValueIdx Cert.KernelIdeal Cert.KernelIdeal.Gen

/-- The two index rows of the block laid side by side: columns 0 … 4095 the sources, 4096 … 8191 the destinations. -/
def idxRow (src dst : IVec S1x4096 32) : IVec S1x8192 32 :=
  concatenate S1x8192 1 [⟨S1x4096, shapeCast S1x4096 src shapeCasts_S1x4096_S1x4096⟩,
    ⟨S1x4096, shapeCast S1x4096 dst shapeCasts_S1x4096_S1x4096⟩] concatenates_S1x4096_S1x4096_S1x8192_d1

/-- Column e of the row is the source of edge e. -/
theorem idxRow_left (src dst : IVec S1x4096 32) (e : Fin 4096) :
    idxRow src dst (ix2 (0 : Fin 1) (⟨e.val, by omega⟩ : Fin 8192)) = src (ix2 (0 : Fin 1) e) := by
  unfold idxRow
  refine (concatenate_pair_apply_left (t := S1x8192) (s₁ := S1x4096) (s₂ := S1x4096) (1 : Fin S1x8192.rank) _ _ concatenates_S1x4096_S1x4096_S1x8192_d1 _ rfl (ix2 (0 : Fin 1) e) ?_).trans
    (congrFun (shapeCast_self src _) _)
  intro b
  match b with
  | ⟨0, _⟩ => rfl
  | ⟨1, _⟩ => rfl

/-- Column e + 4096 of the row is the destination of edge e. -/
theorem idxRow_right (src dst : IVec S1x4096 32) (e : Fin 4096) :
    idxRow src dst (ix2 (0 : Fin 1) (⟨e.val + 4096, by omega⟩ : Fin 8192)) = dst (ix2 (0 : Fin 1) e) := by
  unfold idxRow
  refine (concatenate_pair_apply_right (t := S1x8192) (s₁ := S1x4096) (s₂ := S1x4096) (1 : Fin S1x8192.rank) _ _ concatenates_S1x4096_S1x4096_S1x8192_d1 _ rfl rfl (ix2 (0 : Fin 1) e) ?_ ?_).trans
    (congrFun (shapeCast_self dst _) _)
  · intro b hb
    match b with
    | ⟨0, _⟩ => rfl
    | ⟨1, _⟩ => exact absurd rfl hb
  · rfl

/-- The one-hot matrix of an index row: entry (n, c) is 1 where n is the word at column c, else 0. -/
def onehot (idx : IVec S1x8192 32) : FVec Ideal S1024x8192 .bf16 :=
  truncf .bf16 (sitofp .f32 (extui 32 (cmpi .eq
    (broadcastTo S1024x8192 (iota .tc S1024x1 32 [0] iota_S1024x1_d0_w32) broadcasts_S1024x1_S1024x8192)
    (broadcastTo S1024x8192 idx broadcasts_S1x8192_S1024x8192)) natLt_1_32)) bitsLt_bf16_f32

/-- Its entry at (n, c), as an extended real. -/
theorem onehot_apply (idx : IVec S1x8192 32) (n : Fin 1024) (c : Fin 8192) :
    onehot idx (ix2 n c) = if BitVec.ofNat 32 n.val = idx (ix2 (0 : Fin 1) c) then 1 else 0 := by
  unfold onehot
  rw [truncf_apply, sitofp_apply, extui_apply]
  have h1 : broadcastTo S1024x8192 (iota .tc S1024x1 32 [0] iota_S1024x1_d0_w32) broadcasts_S1024x1_S1024x8192 (ix2 n c)
      = BitVec.ofNat 32 n.val := by
    refine (broadcastTo_apply _ broadcasts_S1024x1_S1024x8192 (ix2 n c) (ix2 n (0 : Fin 1)) ?_).trans ?_
    · intro a
      match a with
      | ⟨0, _⟩ => rfl
      | ⟨1, _⟩ => rfl
    · exact iota_single_apply .tc S1024x1 32 0 iota_S1024x1_d0_w32 _
  have h2 : broadcastTo S1024x8192 idx broadcasts_S1x8192_S1024x8192 (ix2 n c) = idx (ix2 (0 : Fin 1) c) := by
    refine broadcastTo_apply _ broadcasts_S1x8192_S1024x8192 (ix2 n c) (ix2 (0 : Fin 1) c) ?_
    intro a
    match a with
    | ⟨0, _⟩ => rfl
    | ⟨1, _⟩ => rfl
  show FloatOps.sitofp (F := Ideal) .f32 ((IntOp.cmpi .eq (broadcastTo S1024x8192 (iota .tc S1024x1 32 [0] iota_S1024x1_d0_w32) broadcasts_S1024x1_S1024x8192 (ix2 n c))
      (broadcastTo S1024x8192 idx broadcasts_S1x8192_S1024x8192 (ix2 n c))).setWidth 32) = _
  rw [h1, h2]
  by_cases h : BitVec.ofNat 32 n.val = idx (ix2 (0 : Fin 1) c)
  · rw [if_pos h, h]
    have hc : IntOp.cmpi .eq (idx (ix2 (0 : Fin 1) c)) (idx (ix2 (0 : Fin 1) c)) = 1#1 := by simp [IntOp.cmpi]
    rw [hc]
    show (((BitVec.setWidth 32 1#1).toInt : ℝ) : EReal) = 1
    have ht : (BitVec.setWidth 32 1#1).toInt = 1 := by decide
    rw [ht]; simp
  · rw [if_neg h]
    have hb : (BitVec.ofNat 32 n.val == idx (ix2 (0 : Fin 1) c)) = false := beq_eq_false_iff_ne.mpr h
    have hc : IntOp.cmpi .eq (BitVec.ofNat 32 n.val) (idx (ix2 (0 : Fin 1) c)) = 0#1 := by simp [IntOp.cmpi, hb]
    rw [hc]
    show (((BitVec.setWidth 32 0#1).toInt : ℝ) : EReal) = 0
    have ht : (BitVec.setWidth 32 0#1).toInt = 0 := by decide
    rw [ht]; simp

/-- A word in [0, 1024), read signed, is the 32-bit numeral of exactly one n < 1024: the node it names. -/
theorem ofNat_eq_iff (w : BitVec 32) (h : 0 ≤ w.toInt ∧ w.toInt < 1024) (k : Fin 1024) :
    BitVec.ofNat 32 k.val = w ↔ k = Cert.Spec.node w := by
  have hlt := w.isLt
  have hk := k.isLt
  have hw : w.toInt = (w.toNat : Int) := by
    have e := BitVec.toInt_eq_toNat_cond w
    split at e <;> omega
  have hn : (Cert.Spec.node w).val = w.toNat := by
    show min w.toInt.toNat 1023 = w.toNat
    omega
  constructor
  · intro e
    apply Fin.ext
    rw [hn, ← e, BitVec.toNat_ofNat]
    omega
  · intro e
    apply BitVec.eq_of_toNat_eq
    rw [BitVec.toNat_ofNat, e, hn]
    omega

/-- The product of the feature table with a one-hot matrix picks, at column c, the column of the node that c's word names. -/
theorem pick (ht : FVec Ideal S128x1024 .bf16) (idx : IVec S1x8192 32) (d : Fin 128) (c : Fin 8192)
    (h : 0 ≤ (idx (ix2 (0 : Fin 1) c)).toInt ∧ (idx (ix2 (0 : Fin 1) c)).toInt < 1024) :
    matmul dot_S128x1024_S1024x8192_S128x8192_1_0_0_1_n_n none ht (onehot idx) (constant S128x8192 .f32 0x00000000#32) (ix2 d c)
      = ht (ix2 d (Cert.Spec.node (idx (ix2 (0 : Fin 1) c)))) := by
  have hD : dot_S128x1024_S1024x8192_S128x8192_1_0_0_1_n_n = DotDims.plain 128 1024 8192 := rfl
  rw [hD]
  refine (Cert.Lib.matmul_plain_zero_apply 128 1024 8192 none ht (onehot idx) (ix2 d c)).trans ?_
  show ∑ k : Fin 1024, ht (ix2 d k) * onehot idx (ix2 k c) = _
  rw [Finset.sum_eq_single (Cert.Spec.node (idx (ix2 (0 : Fin 1) c)))]
  · rw [onehot_apply, if_pos ((ofNat_eq_iff _ h _).mpr rfl), mul_one]
  · intro k _ hk
    rw [onehot_apply, if_neg (fun e => hk ((ofNat_eq_iff _ h k).mp e)), mul_zero]
  · intro hx
    exact absurd (Finset.mem_univ _) hx

/-- Column e of the left half times column e of the right half, summed over the rows: what the slices, the product, the reduction
    over axis 0 and the cast to one row compute at (0, e). -/
theorem halves_dot (T : FVec Ideal S128x8192 .f32) (e : Fin 4096) :
    shapeCast S1x4096 (multiReduction (F := Ideal) .add [0] S4096
        (mulf (extractStridedSlice S128x4096 ![0, 0] T slices_S128x8192_o0_0_S128x4096)
          (extractStridedSlice S128x4096 ![0, 4096] T slices_S128x8192_o0_4096_S128x4096))
        0x00000000#32 reduces_S128x4096_S4096 (.inl rfl) rfl) shapeCasts_S4096_S1x4096 (ix2 (0 : Fin 1) e)
      = ∑ d : Fin 128, T (ix2 d (⟨e.val, by omega⟩ : Fin 8192)) * T (ix2 d (⟨e.val + 4096, by omega⟩ : Fin 8192)) := by
  refine (shapeCast_apply _ shapeCasts_S4096_S1x4096 (ix2 (0 : Fin 1) e) (ix1 e) ?_).trans ?_
  · rw [Shape.rowMajor_val_two, Shape.rowMajor_val_one]
    show e.val = 0 * 4096 + e.val
    omega
  refine (Ideal.multiReduction_add_single _ 0x00000000#32 reduces_S128x4096_S4096 (.inl rfl) rfl (ix1 e)).trans ?_
  show ∑ d : Fin 128, _ = _
  refine Finset.sum_congr rfl fun d _ => ?_
  have hl : reduces_S128x4096_S4096.lift (ix1 e) d = ix2 d e := by
    funext a
    apply Fin.ext
    match a with
    | ⟨0, _⟩ => rfl
    | ⟨1, _⟩ => rfl
  rw [hl, mulf_apply]
  congr 1
  · refine extractStridedSlice_apply _ T slices_S128x8192_o0_0_S128x4096 (ix2 d e) (ix2 d (⟨e.val, by omega⟩ : Fin 8192)) ?_
    intro a
    match a with
    | ⟨0, _⟩ => show d.val = 0 + d.val; omega
    | ⟨1, _⟩ => show e.val = 0 + e.val; omega
  · refine extractStridedSlice_apply _ T slices_S128x8192_o0_4096_S128x4096 (ix2 d e) (ix2 d (⟨e.val + 4096, by omega⟩ : Fin 8192)) ?_
    intro a
    match a with
    | ⟨0, _⟩ => show d.val = 0 + d.val; omega
    | ⟨1, _⟩ => show e.val + 4096 = 4096 + e.val; omega

/-- The block the second kernel stores, at edge `e` of the block, when both of the edge's end points are node numbers. -/
theorem ker_score (ht : Vec Ideal S128x1024 .bf16) (src dst : Vec Ideal S1x4096 .i32) (bias : Vec Ideal S1x1 .f32) (e : Fin 4096)
    (hs : 0 ≤ (src (ix2 (0 : Fin 1) e)).toInt ∧ (src (ix2 (0 : Fin 1) e)).toInt < 1024)
    (hd : 0 ≤ (dst (ix2 (0 : Fin 1) e)).toInt ∧ (dst (ix2 (0 : Fin 1) e)).toInt < 1024) :
    k1_pay1 (F := Ideal) ht src dst bias (ix2 (0 : Fin 1) e)
      = Cert.Spec.score (fun i d => ht (ix2 d i)) (bias (ix2 (0 : Fin 1) (0 : Fin 1)))
          (Cert.Spec.node (src (ix2 (0 : Fin 1) e))) (Cert.Spec.node (dst (ix2 (0 : Fin 1) e))) := by
  unfold k1_pay1
  simp only [shapeCast_self]
  -- the logistic function of: the two picked columns' inner product, plus the bias
  show Ideal.logistic (shapeCast S1x4096 (multiReduction (F := Ideal) .add [0] S4096
        (mulf
          (extractStridedSlice S128x4096 ![0, 0]
            (matmul dot_S128x1024_S1024x8192_S128x8192_1_0_0_1_n_n none ht (onehot (idxRow src dst))
              (constant S128x8192 .f32 0x00000000#32)) slices_S128x8192_o0_0_S128x4096)
          (extractStridedSlice S128x4096 ![0, 4096]
            (matmul dot_S128x1024_S1024x8192_S128x8192_1_0_0_1_n_n none ht (onehot (idxRow src dst))
              (constant S128x8192 .f32 0x00000000#32)) slices_S128x8192_o0_4096_S128x4096))
        0x00000000#32 reduces_S128x4096_S4096 (.inl rfl) rfl) shapeCasts_S4096_S1x4096 (ix2 (0 : Fin 1) e)
      + extractAt ![0, 0] bias inpos_S1x1_p0_0) = _
  rw [halves_dot]
  unfold Cert.Spec.score
  congr 2
  · refine Finset.sum_congr rfl fun d _ => ?_
    rw [pick ht _ d _ (by rw [idxRow_left]; exact hs), pick ht _ d _ (by rw [idxRow_right]; exact hd),
      idxRow_left, idxRow_right]
  · show bias _ = bias _
    congr 1
    funext a
    apply Fin.ext
    match a with
    | ⟨0, _⟩ => rfl
    | ⟨1, _⟩ => rfl

end Cert.KerScore

end
-- ==== Proof.KerRun.lean ====
/-
  The kernel program's result, read off its run.

  The program is two regions among a few host operations. The first region has one grid point and every window is the
  whole of its array: from the node features, the two weight matrices and the two biases (each bias viewed as a 1 × 128
  row) it leaves the table of final node features, transposed (row = feature, column = node). Between the regions the
  host cuts the edge list into its two rows, pads each with zeros to 49 blocks of 4096 edges and views it as a 1 × 200704
  row; the bias becomes a 1 × 1 cell. The second region has 49 grid points; point t reads the whole table, block t of each
  index row and the bias cell, and writes block t of a 1 × 200704 row of scores: the 49 blocks tile that row, so after the
  region it holds, at every padded edge, the edge's score over the table. (The padding is zero, a node number, so the
  scores there are defined; they are cut off afterwards.) The host then cuts the row to the 200000 edges of the list.
  Under "every entry of the edge list is a node number" the result is the specification's score of every edge.
-/
import proofs.«402322_j26242250179179_3_alg».proof.Proof.Gen.KernelIdeal.Frame
import proofs.«402322_j26242250179179_3_alg».proof.Proof.KerNodes
import proofs.«402322_j26242250179179_3_alg».proof.Proof.KerScore
import proofs.«402322_j26242250179179_3_alg».proof.Proof.Spec
import Idealize.ShloMosaic.Lib.Pipeline.Value
import Idealize.ShloMosaic.Lib.ValueIdx
import Idealize.ShloMosaic.Lib.KernelVsHost
import Idealize.ShloMosaic.Lib.StableHlo.Run

set_option maxRecDepth 16384

noncomputable section

namespace Cert.KernelIdeal.KerRun

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arguments, as arrays -/

abbrev zA (c : Dev nD) : Vec Ideal S1024x128 .f32 := m ((c : Thread nD τ).loc main_arg0)
abbrev eA (c : Dev nD) : Vec Ideal S2x200000 .i32 := m ((c : Thread nD τ).loc main_arg1)
abbrev w1A (c : Dev nD) : Vec Ideal S128x128 .f32 := m ((c : Thread nD τ).loc main_arg2)
abbrev b1A (c : Dev nD) : Vec Ideal S128 .f32 := m ((c : Thread nD τ).loc main_arg3)
abbrev w2A (c : Dev nD) : Vec Ideal S128x128 .f32 := m ((c : Thread nD τ).loc main_arg4)
abbrev b2A (c : Dev nD) : Vec Ideal S128 .f32 := m ((c : Thread nD τ).loc main_arg5)
abbrev biasA (c : Dev nD) : Vec Ideal S1 .f32 := m ((c : Thread nD τ).loc main_arg6)

/-! ## What the first region finds: the arguments as launched, each bias as a 1 × 128 row -/

theorem V1_arg0 (c : Dev nD) : (V1 m ρ c main_arg0 : Vec Ideal S1024x128 .f32) = zA m c := by
  show StableHlo.after hostOps0 (W0 m ρ c) (Proc.devRef .tc main_arg0) = _
  after_results

theorem V1_v0 (c : Dev nD) : (V1 m ρ c main_v0 : Vec Ideal S1x128 .f32) = shapeCast S1x128 (b1A m c) shapeCasts_S128_S1x128 := by
  show StableHlo.after hostOps0 (W0 m ρ c) (Proc.devRef .tc main_v0) = _
  after_results
  rfl

theorem V1_v1 (c : Dev nD) : (V1 m ρ c main_v1 : Vec Ideal S1x128 .f32) = shapeCast S1x128 (b2A m c) shapeCasts_S128_S1x128 := by
  show StableHlo.after hostOps0 (W0 m ρ c) (Proc.devRef .tc main_v1) = _
  after_results
  rfl

theorem V1_arg2 (c : Dev nD) : (V1 m ρ c main_arg2 : Vec Ideal S128x128 .f32) = w1A m c := by
  show StableHlo.after hostOps0 (W0 m ρ c) (Proc.devRef .tc main_arg2) = _
  after_results

theorem V1_arg4 (c : Dev nD) : (V1 m ρ c main_arg4 : Vec Ideal S128x128 .f32) = w2A m c := by
  show StableHlo.after hostOps0 (W0 m ρ c) (Proc.devRef .tc main_arg4) = _
  after_results

/-! ## Region 0: one grid point, every window the whole of its array -/

/-- The one grid point's block indices are all zero. -/
theorem idx0 : ∀ t : Fin cfg0.N, (∀ a : Fin 2, win0_0.index t a = 0) ∧ (∀ a : Fin 2, win0_1.index t a = 0)
    ∧ (∀ a : Fin 2, win0_2.index t a = 0) ∧ (∀ a : Fin 2, win0_3.index t a = 0) ∧ (∀ a : Fin 2, win0_4.index t a = 0)
    ∧ (∀ a : Fin 2, win0_5.index t a = 0) :=
  (by decide +kernel : ∀ t : Fin grid0.N, _)

/-- Each input window's block at the one point is the whole of its array. -/
theorem iblk0_0 (c : Dev nD) (t : Fin cfg0.N) : (iblk0 (V1 m ρ) c 0 t : Vec Ideal S1024x128 .f32) = zA m c := by
  rw [← V1_arg0 m ρ c]
  funext y
  show V1 m ρ c main_arg0 (((cfg0.win 0).blk t).view.emb y) = V1 m ρ c main_arg0 y
  refine congrArg _ (funext fun a => Fin.ext ?_)
  have h := (idx0 t).1
  match a with
  | ⟨0, _⟩ => show win0_0.index t (0 : Fin 2) * 1024 + 1 * (y 0).val = (y 0).val; rw [h 0]; omega
  | ⟨1, _⟩ => show win0_0.index t (1 : Fin 2) * 128 + 1 * (y 1).val = (y 1).val; rw [h 1]; omega

theorem iblk0_1 (c : Dev nD) (t : Fin cfg0.N) : (iblk0 (V1 m ρ) c 1 t : Vec Ideal S128x128 .f32) = w1A m c := by
  rw [← V1_arg2 m ρ c]
  funext y
  show V1 m ρ c main_arg2 (((cfg0.win 1).blk t).view.emb y) = V1 m ρ c main_arg2 y
  refine congrArg _ (funext fun a => Fin.ext ?_)
  have h := (idx0 t).2.1
  match a with
  | ⟨0, _⟩ => show win0_1.index t (0 : Fin 2) * 128 + 1 * (y 0).val = (y 0).val; rw [h 0]; omega
  | ⟨1, _⟩ => show win0_1.index t (1 : Fin 2) * 128 + 1 * (y 1).val = (y 1).val; rw [h 1]; omega

theorem iblk0_2 (c : Dev nD) (t : Fin cfg0.N) : (iblk0 (V1 m ρ) c 2 t : Vec Ideal S1x128 .f32) = shapeCast S1x128 (b1A m c) shapeCasts_S128_S1x128 := by
  rw [← V1_v0 m ρ c]
  funext y
  show V1 m ρ c main_v0 (((cfg0.win 2).blk t).view.emb y) = V1 m ρ c main_v0 y
  refine congrArg _ (funext fun a => Fin.ext ?_)
  have h := (idx0 t).2.2.1
  match a with
  | ⟨0, _⟩ => show win0_2.index t (0 : Fin 2) * 1 + 1 * (y 0).val = (y 0).val; rw [h 0]; omega
  | ⟨1, _⟩ => show win0_2.index t (1 : Fin 2) * 128 + 1 * (y 1).val = (y 1).val; rw [h 1]; omega

theorem iblk0_3 (c : Dev nD) (t : Fin cfg0.N) : (iblk0 (V1 m ρ) c 3 t : Vec Ideal S128x128 .f32) = w2A m c := by
  rw [← V1_arg4 m ρ c]
  funext y
  show V1 m ρ c main_arg4 (((cfg0.win 3).blk t).view.emb y) = V1 m ρ c main_arg4 y
  refine congrArg _ (funext fun a => Fin.ext ?_)
  have h := (idx0 t).2.2.2.1
  match a with
  | ⟨0, _⟩ => show win0_3.index t (0 : Fin 2) * 128 + 1 * (y 0).val = (y 0).val; rw [h 0]; omega
  | ⟨1, _⟩ => show win0_3.index t (1 : Fin 2) * 128 + 1 * (y 1).val = (y 1).val; rw [h 1]; omega

theorem iblk0_4 (c : Dev nD) (t : Fin cfg0.N) : (iblk0 (V1 m ρ) c 4 t : Vec Ideal S1x128 .f32) = shapeCast S1x128 (b2A m c) shapeCasts_S128_S1x128 := by
  rw [← V1_v1 m ρ c]
  funext y
  show V1 m ρ c main_v1 (((cfg0.win 4).blk t).view.emb y) = V1 m ρ c main_v1 y
  refine congrArg _ (funext fun a => Fin.ext ?_)
  have h := (idx0 t).2.2.2.2.1
  match a with
  | ⟨0, _⟩ => show win0_4.index t (0 : Fin 2) * 1 + 1 * (y 0).val = (y 0).val; rw [h 0]; omega
  | ⟨1, _⟩ => show win0_4.index t (1 : Fin 2) * 128 + 1 * (y 1).val = (y 1).val; rw [h 1]; omega

theorem hz2 : (![0, 0] : Fin 2 → Nat) = fun _ => 0 := funext fun a => by fin_cases a <;> rfl

/-- A length-128 vector viewed as a 1 × 128 row holds, at (0, d), the vector's entry d. -/
theorem row_apply (x : Vec Ideal S128 .f32) (d : Fin 128) :
    shapeCast S1x128 x shapeCasts_S128_S1x128 (ix2 (0 : Fin 1) d) = x (ix1 d) :=
  shapeCast_apply x shapeCasts_S128_S1x128 _ _ (by
    rw [Shape.rowMajor_val_two, Shape.rowMajor_val_one]
    show d.val = 0 * 128 + d.val
    omega)

/-- The table the first region leaves: the final node features, transposed (row = feature, column = node). -/
def featT (c : Dev nD) : Vec Ideal S128x1024 .bf16 := fun j =>
  Cert.Spec.feat (fun i k => zA m c (ix2 i k)) (fun k d => w1A m c (ix2 k d)) (fun d => b1A m c (ix1 d))
    (fun k d => w2A m c (ix2 k d)) (fun d => b2A m c (ix1 d)) ⟨(j 1).val, (j 1).isLt⟩ ⟨(j 0).val, (j 0).isLt⟩

/-- What the region's one point writes back is the whole table. -/
theorem flushed0_eq (c : Dev nD) (t : Fin cfg0.N) :
    (dat0 (V1 m ρ) c).flushed 5 t = ((cfg0.win 5).blk t).view.read (Elt Ideal) (featT m c) := by
  show (cfg0.win 5).cut (grid0.coords t) ((dat0 (V1 m ρ) c).after 5 t) = _
  rw [after0_5]
  unfold out0_5
  rw [View.canon_unit_zero hz2]
  simp only [View.ld_unit_zero (S := S1024x128) hz2, View.ld_unit_zero (S := S128x128) hz2, View.ld_unit_zero (S := S1x128) hz2]
  rw [iblk0_0, iblk0_1, iblk0_2, iblk0_3, iblk0_4]
  funext y
  obtain ⟨d, n, rfl⟩ : ∃ (d : Fin 128) (n : Fin 1024), y = ix2 d n := ⟨y 0, y 1, eq_ix2 y⟩
  show k0_pay1 (F := Ideal) (zA m c) (w1A m c) (shapeCast S1x128 (b1A m c) shapeCasts_S128_S1x128) (w2A m c)
      (shapeCast S1x128 (b2A m c) shapeCasts_S128_S1x128) (ix2 d n) = featT m c (((cfg0.win 5).blk t).view.emb (ix2 d n))
  rw [Cert.KerNodes.ker_feat]
  have hb1 : (fun d => shapeCast S1x128 (b1A m c) shapeCasts_S128_S1x128 (ix2 (0 : Fin 1) d)) = fun d => b1A m c (ix1 d) :=
    funext fun d => row_apply (b1A m c) d
  have hb2 : (fun d => shapeCast S1x128 (b2A m c) shapeCasts_S128_S1x128 (ix2 (0 : Fin 1) d)) = fun d => b2A m c (ix1 d) :=
    funext fun d => row_apply (b2A m c) d
  rw [hb1, hb2]
  unfold featT
  have h := (idx0 t).2.2.2.2.2
  have e0 : ((((cfg0.win 5).blk t).view.emb (ix2 d n)) 0).val = d.val := by
    show win0_5.index t (0 : Fin 2) * 128 + 1 * d.val = d.val; rw [h 0]; omega
  have e1 : ((((cfg0.win 5).blk t).view.emb (ix2 d n)) 1).val = n.val := by
    show win0_5.index t (1 : Fin 2) * 1024 + 1 * n.val = n.val; rw [h 1]; omega
  congr 1
  · exact Fin.ext e1.symm
  · exact Fin.ext e0.symm

/-- An index of the table is in point `t`'s block iff each coordinate is in the block's range on its axis. -/
theorem mem_blk0 (t : Fin cfg0.N) (i : S128x1024.Idx) :
    i ∈ ((cfg0.win 5).blk t).view.set ↔ ∀ a : Fin 2, win0_5.index t a * S128x1024.size a ≤ (i a).val ∧ (i a).val < win0_5.index t a * S128x1024.size a + S128x1024.size a := by
  show i ∈ ((View.whole main_v2).slice (win0_5.rect t)).set ↔ _
  rw [View.set_slice_whole, Rect.mem_set_unit]
  exact Iff.rfl

/-- Every index of the table lies in the one point's block: the block is the whole table. -/
theorem cover0 (c : Dev nD) (i : S128x1024.Idx) :
    ∃ t : Fin cfg0.N, (cfg0.win 5).flush t = true ∧ i ∈ ((cfg0.win 5).blk t).view.set := by
  have t : Fin cfg0.N := ⟨0, by decide⟩
  refine ⟨t, flush0_5 t, ?_⟩
  rw [mem_blk0]
  have h := (idx0 t).2.2.2.2.2
  intro a
  match a with
  | ⟨0, _⟩ =>
    show win0_5.index t (0 : Fin 2) * 128 ≤ (i 0).val ∧ (i 0).val < win0_5.index t (0 : Fin 2) * 128 + 128
    have hi : (i 0).val < 128 := (i 0).isLt
    rw [h 0]; exact ⟨by omega, by omega⟩
  | ⟨1, _⟩ =>
    show win0_5.index t (1 : Fin 2) * 1024 ≤ (i 1).val ∧ (i 1).val < win0_5.index t (1 : Fin 2) * 1024 + 1024
    have hi : (i 1).val < 1024 := (i 1).isLt
    rw [h 1]; exact ⟨by omega, by omega⟩

/-- THE TABLE after the first region. -/
theorem final0 (c : Dev nD) : (dat0 (V1 m ρ) c).arrAt 5 cfg0.N = featT m c :=
  (dat0 (V1 m ρ) c).arrAt_eq_of_cover 5 (featT m c) (fun t _ => flushed0_eq m ρ c t) (cover0 c)

/-! ## Between the regions -/

/-- The first region writes neither the edge list nor the bias. -/
theorem W2_arg1 (c : Dev nD) : (W2 m ρ c (Proc.devRef .tc main_arg1) : Vec Ideal S2x200000 .i32) = eA m c := by
  refine (W2_of_ne m ρ c main_arg1 (by decide)).trans ?_
  show StableHlo.after hostOps0 (W0 m ρ c) (Proc.devRef .tc main_arg1) = _
  after_results

theorem W2_arg6 (c : Dev nD) : (W2 m ρ c (Proc.devRef .tc main_arg6) : Vec Ideal S1 .f32) = biasA m c := by
  refine (W2_of_ne m ρ c main_arg6 (by decide)).trans ?_
  show StableHlo.after hostOps0 (W0 m ρ c) (Proc.devRef .tc main_arg6) = _
  after_results

/-- What the second region finds: the table the first region left, the two padded index rows, the bias cell. -/
theorem V7_v2 (c : Dev nD) : (V7 m ρ c main_v2 : Vec Ideal S128x1024 .bf16) = featT m c := by
  show StableHlo.after hostOps1_4 (StableHlo.after hostOps1_3 (StableHlo.after hostOps1_2 (StableHlo.after hostOps1_1
    (StableHlo.after hostOps1 (W2 m ρ c))))) (Proc.devRef .tc main_v2) = _
  after_results
  exact (W2_arr m ρ c 5).trans (final0 m ρ c)

/-- Row `r` of the edge list, as the second kernel is handed it: padded with zeros to 49 blocks of 4096, as a 1 × 200704 row. -/
def srcRow (c : Dev nD) : Vec Ideal S1x200704 .i32 :=
  shapeCast S1x200704 (pad S200704 ![0] ![704] ![0]
    (shapeCast S200000 (extractStridedSlice S1x200000 ![0, 0] (eA m c) slices_S2x200000_S1x200000_0_0) shapeCasts_S1x200000_S200000)
    (constantI S_ 32 0#32) pads_S200000_S200704_07040 h_S_) shapeCasts_S200704_S1x200704

/-- The same for the destination row of the edge list. -/
def dstRow (c : Dev nD) : Vec Ideal S1x200704 .i32 :=
  shapeCast S1x200704 (pad S200704 ![0] ![704] ![0]
    (shapeCast S200000 (extractStridedSlice S1x200000 ![1, 0] (eA m c) slices_S2x200000_S1x200000_1_0) shapeCasts_S1x200000_S200000)
    (constantI S_ 32 0#32) pads_S200000_S200704_07040 h_S_) shapeCasts_S200704_S1x200704

theorem V7_v8 (c : Dev nD) : (V7 m ρ c main_v8 : Vec Ideal S1x200704 .i32) = srcRow m c := by
  show StableHlo.after hostOps1_4 (StableHlo.after hostOps1_3 (StableHlo.after hostOps1_2 (StableHlo.after hostOps1_1
    (StableHlo.after hostOps1 (W2 m ρ c))))) (Proc.devRef .tc main_v8) = _
  after_results
  rw [W2_arg1]
  rfl

theorem V7_v10 (c : Dev nD) : (V7 m ρ c main_v10 : Vec Ideal S1x200704 .i32) = dstRow m c := by
  show StableHlo.after hostOps1_4 (StableHlo.after hostOps1_3 (StableHlo.after hostOps1_2 (StableHlo.after hostOps1_1
    (StableHlo.after hostOps1 (W2 m ρ c))))) (Proc.devRef .tc main_v10) = _
  after_results
  rw [W2_arg1]
  rfl

theorem V7_v11 (c : Dev nD) : (V7 m ρ c main_v11 : Vec Ideal S1x1 .f32) = shapeCast S1x1 (biasA m c) shapeCasts_S1_S1x1 := by
  show StableHlo.after hostOps1_4 (StableHlo.after hostOps1_3 (StableHlo.after hostOps1_2 (StableHlo.after hostOps1_1
    (StableHlo.after hostOps1 (W2 m ρ c))))) (Proc.devRef .tc main_v11) = _
  after_results
  rw [W2_arg6]
  rfl

/-- The source row at edge `e`: the edge list's entry inside the list, zero in the padding. -/
theorem srcRow_apply (c : Dev nD) (e : Fin 200704) :
    srcRow m c (ix2 (0 : Fin 1) e) = if h : e.val < 200000 then eA m c (ix2 (0 : Fin 2) (⟨e.val, h⟩ : Fin 200000)) else 0#32 := by
  unfold srcRow
  rw [shapeCast_apply _ shapeCasts_S200704_S1x200704 (ix2 (0 : Fin 1) e) (ix1 e) (by
    rw [Shape.rowMajor_val_two, Shape.rowMajor_val_one]
    show e.val = 0 * 200704 + e.val
    omega)]
  by_cases h : e.val < 200000
  · rw [dif_pos h]
    rw [pad_apply_of_inside _ _ _ _ _ pads_S200000_S200704_07040 h_S_ (ix1 e) (ix1 (⟨e.val, h⟩ : Fin 200000)) (fun a => by
      have ha : a = 0 := Subsingleton.elim _ _
      subst ha
      show e.val = 0 + e.val * (0 + 1)
      omega)]
    rw [shapeCast_apply _ shapeCasts_S1x200000_S200000 (ix1 (⟨e.val, h⟩ : Fin 200000)) (ix2 (0 : Fin 1) (⟨e.val, h⟩ : Fin 200000)) (by
      rw [Shape.rowMajor_val_two, Shape.rowMajor_val_one]
      show 0 * 200000 + e.val = e.val
      omega)]
    exact extractStridedSlice_apply _ _ _ _ (ix2 (0 : Fin 2) (⟨e.val, h⟩ : Fin 200000)) (fun a => by
      match a with
      | ⟨0, _⟩ => rfl
      | ⟨1, _⟩ => show e.val = 0 + e.val; omega)
  · rw [dif_neg h]
    exact pad_apply_of_not_inside _ _ _ _ _ pads_S200000_S200704_07040 h_S_ (ix1 e) 0 (fun hin => h (by
      have h3 := hin.2.2
      have h4 : (e.val - 0) / (0 + 1) < 200000 := h3
      omega))

/-- Every entry of that row is a node number when the edge list's are. -/
theorem srcRow_range (c : Dev nD) (hE : ∀ k : S2x200000.Idx, 0 ≤ (eA m c k).toInt ∧ (eA m c k).toInt < 1024) (e : Fin 200704) :
    0 ≤ (srcRow m c (ix2 (0 : Fin 1) e)).toInt ∧ (srcRow m c (ix2 (0 : Fin 1) e)).toInt < 1024 := by
  rw [srcRow_apply]
  split
  · exact hE _
  · decide

/-- The destination row at edge `e`: the edge list's entry inside the list, zero in the padding. -/
theorem dstRow_apply (c : Dev nD) (e : Fin 200704) :
    dstRow m c (ix2 (0 : Fin 1) e) = if h : e.val < 200000 then eA m c (ix2 (1 : Fin 2) (⟨e.val, h⟩ : Fin 200000)) else 0#32 := by
  unfold dstRow
  rw [shapeCast_apply _ shapeCasts_S200704_S1x200704 (ix2 (0 : Fin 1) e) (ix1 e) (by
    rw [Shape.rowMajor_val_two, Shape.rowMajor_val_one]
    show e.val = 0 * 200704 + e.val
    omega)]
  by_cases h : e.val < 200000
  · rw [dif_pos h]
    rw [pad_apply_of_inside _ _ _ _ _ pads_S200000_S200704_07040 h_S_ (ix1 e) (ix1 (⟨e.val, h⟩ : Fin 200000)) (fun a => by
      have ha : a = 0 := Subsingleton.elim _ _
      subst ha
      show e.val = 0 + e.val * (0 + 1)
      omega)]
    rw [shapeCast_apply _ shapeCasts_S1x200000_S200000 (ix1 (⟨e.val, h⟩ : Fin 200000)) (ix2 (0 : Fin 1) (⟨e.val, h⟩ : Fin 200000)) (by
      rw [Shape.rowMajor_val_two, Shape.rowMajor_val_one]
      show 0 * 200000 + e.val = e.val
      omega)]
    exact extractStridedSlice_apply _ _ _ _ (ix2 (1 : Fin 2) (⟨e.val, h⟩ : Fin 200000)) (fun a => by
      match a with
      | ⟨0, _⟩ => rfl
      | ⟨1, _⟩ => show e.val = 0 + e.val; omega)
  · rw [dif_neg h]
    exact pad_apply_of_not_inside _ _ _ _ _ pads_S200000_S200704_07040 h_S_ (ix1 e) 0 (fun hin => h (by
      have h3 := hin.2.2
      have h4 : (e.val - 0) / (0 + 1) < 200000 := h3
      omega))

/-- Every entry of that row is a node number when the edge list's are. -/
theorem dstRow_range (c : Dev nD) (hE : ∀ k : S2x200000.Idx, 0 ≤ (eA m c k).toInt ∧ (eA m c k).toInt < 1024) (e : Fin 200704) :
    0 ≤ (dstRow m c (ix2 (0 : Fin 1) e)).toInt ∧ (dstRow m c (ix2 (0 : Fin 1) e)).toInt < 1024 := by
  rw [dstRow_apply]
  split
  · exact hE _
  · decide

/-- The bias, as the 1 × 1 cell the second kernel is handed. -/
theorem cell_apply (x : Vec Ideal S1 .f32) :
    shapeCast S1x1 x shapeCasts_S1_S1x1 (ix2 (0 : Fin 1) (0 : Fin 1)) = x (ix1 (0 : Fin 1)) :=
  shapeCast_apply x shapeCasts_S1_S1x1 _ _ (by
    rw [Shape.rowMajor_val_two, Shape.rowMajor_val_one]
    show (0 : Nat) = 0 * 1 + 0
    omega)

/-! ## Region 1: 49 grid points, each scoring one block of 4096 edges -/

/-- The block indices at point `t`: the table and the bias cell stay, the index rows and the score row move to block `t`. -/
theorem idx1 : ∀ t : Fin cfg1.N, (∀ a : Fin 2, win1_0.index t a = 0) ∧ win1_1.index t (0 : Fin 2) = 0 ∧ win1_1.index t (1 : Fin 2) = t.val
    ∧ win1_2.index t (0 : Fin 2) = 0 ∧ win1_2.index t (1 : Fin 2) = t.val ∧ (∀ a : Fin 2, win1_3.index t a = 0)
    ∧ win1_4.index t (0 : Fin 2) = 0 ∧ win1_4.index t (1 : Fin 2) = t.val ∧ t.val < 49 :=
  (by decide +kernel : ∀ t : Fin grid1.N, _)

/-- The feature table's block at any point is the whole table. -/
theorem iblk1_0 (c : Dev nD) (t : Fin cfg1.N) : (iblk1 (V7 m ρ) c 0 t : Vec Ideal S128x1024 .bf16) = featT m c := by
  rw [← V7_v2 m ρ c]
  funext y
  show V7 m ρ c main_v2 (((cfg1.win 0).blk t).view.emb y) = V7 m ρ c main_v2 y
  refine congrArg _ (funext fun a => Fin.ext ?_)
  have h := (idx1 t).1
  match a with
  | ⟨0, _⟩ => show win1_0.index t (0 : Fin 2) * 128 + 1 * (y 0).val = (y 0).val; rw [h 0]; omega
  | ⟨1, _⟩ => show win1_0.index t (1 : Fin 2) * 1024 + 1 * (y 1).val = (y 1).val; rw [h 1]; omega

/-- The source row's block at point `t`, at edge `e` of the block: the row's entry `4096 t + e`. -/
theorem iblk1_1 (c : Dev nD) (t : Fin cfg1.N) (e : Fin 4096) (he : t.val * 4096 + e.val < 200704) :
    (iblk1 (V7 m ρ) c 1 t : Vec Ideal S1x4096 .i32) (ix2 (0 : Fin 1) e) = srcRow m c (ix2 (0 : Fin 1) (⟨t.val * 4096 + e.val, he⟩ : Fin 200704)) := by
  rw [← V7_v8 m ρ c]
  show V7 m ρ c main_v8 (((cfg1.win 1).blk t).view.emb (ix2 (0 : Fin 1) e)) = V7 m ρ c main_v8 _
  refine congrArg _ (funext fun a => Fin.ext ?_)
  obtain ⟨-, h0, h1, -⟩ := idx1 t
  match a with
  | ⟨0, _⟩ => show win1_1.index t (0 : Fin 2) * 1 + 1 * 0 = 0; rw [h0]
  | ⟨1, _⟩ => show win1_1.index t (1 : Fin 2) * 4096 + 1 * e.val = t.val * 4096 + e.val; rw [h1]; omega

/-- The same for the destination row. -/
theorem iblk1_2 (c : Dev nD) (t : Fin cfg1.N) (e : Fin 4096) (he : t.val * 4096 + e.val < 200704) :
    (iblk1 (V7 m ρ) c 2 t : Vec Ideal S1x4096 .i32) (ix2 (0 : Fin 1) e) = dstRow m c (ix2 (0 : Fin 1) (⟨t.val * 4096 + e.val, he⟩ : Fin 200704)) := by
  rw [← V7_v10 m ρ c]
  show V7 m ρ c main_v10 (((cfg1.win 2).blk t).view.emb (ix2 (0 : Fin 1) e)) = V7 m ρ c main_v10 _
  refine congrArg _ (funext fun a => Fin.ext ?_)
  obtain ⟨-, -, -, h0, h1, -⟩ := idx1 t
  match a with
  | ⟨0, _⟩ => show win1_2.index t (0 : Fin 2) * 1 + 1 * 0 = 0; rw [h0]
  | ⟨1, _⟩ => show win1_2.index t (1 : Fin 2) * 4096 + 1 * e.val = t.val * 4096 + e.val; rw [h1]; omega

/-- The bias cell's block at any point is the cell. -/
theorem iblk1_3 (c : Dev nD) (t : Fin cfg1.N) :
    (iblk1 (V7 m ρ) c 3 t : Vec Ideal S1x1 .f32) (ix2 (0 : Fin 1) (0 : Fin 1)) = biasA m c (ix1 (0 : Fin 1)) := by
  rw [← cell_apply (biasA m c), ← V7_v11 m ρ c]
  show V7 m ρ c main_v11 (((cfg1.win 3).blk t).view.emb (ix2 (0 : Fin 1) (0 : Fin 1))) = V7 m ρ c main_v11 _
  refine congrArg _ (funext fun a => Fin.ext ?_)
  have h := (idx1 t).2.2.2.2.2.1
  match a with
  | ⟨0, _⟩ => show win1_3.index t (0 : Fin 2) * 1 + 1 * 0 = 0; rw [h 0]
  | ⟨1, _⟩ => show win1_3.index t (1 : Fin 2) * 1 + 1 * 0 = 0; rw [h 1]

/-- The row of scores the second region leaves: the score of every padded edge over the transposed feature table. -/
def scoreRow (c : Dev nD) : Vec Ideal S1x200704 .f32 := fun j =>
  Cert.Spec.score (fun i d => featT m c (ix2 d i)) (biasA m c (ix1 (0 : Fin 1)))
    (Cert.Spec.node (srcRow m c (ix2 (0 : Fin 1) (⟨(j 1).val, (j 1).isLt⟩ : Fin 200704))))
    (Cert.Spec.node (dstRow m c (ix2 (0 : Fin 1) (⟨(j 1).val, (j 1).isLt⟩ : Fin 200704))))

/-- What point `t` writes back is block `t` of the row of scores. -/
theorem flushed1_eq (c : Dev nD) (hE : ∀ k : S2x200000.Idx, 0 ≤ (eA m c k).toInt ∧ (eA m c k).toInt < 1024) (t : Fin cfg1.N) :
    (dat1 (V7 m ρ) c).flushed 4 t = ((cfg1.win 4).blk t).view.read (Elt Ideal) (scoreRow m c) := by
  show (cfg1.win 4).cut (grid1.coords t) ((dat1 (V7 m ρ) c).after 4 t) = _
  rw [after1_4]
  unfold out1_4
  rw [View.canon_unit_zero hz2]
  simp only [View.ld_unit_zero (S := S128x1024) hz2, View.ld_unit_zero (S := S1x4096) hz2, View.ld_unit_zero (S := S1x1) hz2]
  funext y
  obtain ⟨u, e, rfl⟩ : ∃ (u : Fin 1) (e : Fin 4096), y = ix2 u e := ⟨y 0, y 1, eq_ix2 y⟩
  obtain rfl : u = 0 := Subsingleton.elim _ _
  obtain ⟨-, -, -, -, -, -, h40, h41, ht⟩ := idx1 t
  have he : t.val * 4096 + e.val < 200704 := by have := e.isLt; omega
  show k1_pay1 (F := Ideal) (iblk1 (V7 m ρ) c 0 t) (iblk1 (V7 m ρ) c 1 t) (iblk1 (V7 m ρ) c 2 t) (iblk1 (V7 m ρ) c 3 t) (ix2 (0 : Fin 1) e)
      = scoreRow m c (((cfg1.win 4).blk t).view.emb (ix2 (0 : Fin 1) e))
  refine (Cert.KerScore.ker_score (iblk1 (V7 m ρ) c 0 t) (iblk1 (V7 m ρ) c 1 t) (iblk1 (V7 m ρ) c 2 t) (iblk1 (V7 m ρ) c 3 t) e
    (by rw [iblk1_1 m ρ c t e he]; exact srcRow_range m c hE _) (by rw [iblk1_2 m ρ c t e he]; exact dstRow_range m c hE _)).trans ?_
  rw [iblk1_0, iblk1_1 m ρ c t e he, iblk1_2 m ρ c t e he, iblk1_3]
  unfold scoreRow
  have e1 : ((((cfg1.win 4).blk t).view.emb (ix2 (0 : Fin 1) e)) 1).val = t.val * 4096 + e.val := by
    show win1_4.index t (1 : Fin 2) * 4096 + 1 * e.val = _; rw [h41]; omega
  have hidx : (⟨((((cfg1.win 4).blk t).view.emb (ix2 (0 : Fin 1) e)) 1).val, ((((cfg1.win 4).blk t).view.emb (ix2 (0 : Fin 1) e)) 1).isLt⟩ : Fin 200704)
      = ⟨t.val * 4096 + e.val, he⟩ := Fin.ext e1
  rw [hidx]

/-- An index of the row is in point `t`'s block iff each coordinate is in the block's range on its axis. -/
theorem mem_blk1 (t : Fin cfg1.N) (i : S1x200704.Idx) :
    i ∈ ((cfg1.win 4).blk t).view.set ↔ ∀ a : Fin 2, win1_4.index t a * S1x4096.size a ≤ (i a).val ∧ (i a).val < win1_4.index t a * S1x4096.size a + S1x4096.size a := by
  show i ∈ ((View.whole main_v12).slice (win1_4.rect t)).set ↔ _
  rw [View.set_slice_whole, Rect.mem_set_unit]
  exact Iff.rfl

/-- Which point has block number `q`. -/
theorem idx1_onto : ∀ q : Fin 49, ∃ t : Fin cfg1.N, win1_4.index t (0 : Fin 2) = 0 ∧ win1_4.index t (1 : Fin 2) = q.val :=
  (by decide +kernel : ∀ q : Fin 49, ∃ t : Fin grid1.N, win1_4.index t (0 : Fin 2) = 0 ∧ win1_4.index t (1 : Fin 2) = q.val)

/-- The 49 blocks tile the row. -/
theorem cover1 (c : Dev nD) (i : S1x200704.Idx) :
    ∃ t : Fin cfg1.N, (cfg1.win 4).flush t = true ∧ i ∈ ((cfg1.win 4).blk t).view.set := by
  have hi0 : (i 0).val < 1 := (i 0).isLt
  have hi1 : (i 1).val < 200704 := (i 1).isLt
  obtain ⟨t, h0, h1⟩ := idx1_onto ⟨(i 1).val / 4096, by omega⟩
  refine ⟨t, flush1_4 t, ?_⟩
  rw [mem_blk1]
  intro a
  match a with
  | ⟨0, _⟩ =>
    show win1_4.index t (0 : Fin 2) * 1 ≤ (i 0).val ∧ (i 0).val < win1_4.index t (0 : Fin 2) * 1 + 1
    rw [h0]; exact ⟨by omega, by omega⟩
  | ⟨1, _⟩ =>
    show win1_4.index t (1 : Fin 2) * 4096 ≤ (i 1).val ∧ (i 1).val < win1_4.index t (1 : Fin 2) * 4096 + 4096
    rw [h1]; show (i 1).val / 4096 * 4096 ≤ (i 1).val ∧ (i 1).val < (i 1).val / 4096 * 4096 + 4096
    exact ⟨by omega, by omega⟩

/-- THE ROW OF SCORES after the second region. -/
theorem final1 (c : Dev nD) (hE : ∀ k : S2x200000.Idx, 0 ≤ (eA m c k).toInt ∧ (eA m c k).toInt < 1024) :
    (dat1 (V7 m ρ) c).arrAt 4 cfg1.N = scoreRow m c :=
  (dat1 (V7 m ρ) c).arrAt_eq_of_cover 4 (scoreRow m c) (fun t _ => flushed1_eq m ρ c hE t) (cover1 c)

/-! ## After the second region: the result -/

/-- The result buffer: the row of scores cut to the 200000 edges of the list, as a vector. -/
theorem W9_v14 (c : Dev nD) (hE : ∀ k : S2x200000.Idx, 0 ≤ (eA m c k).toInt ∧ (eA m c k).toInt < 1024) :
    (W9 m ρ c (Proc.devRef .tc main_v14) : Vec Ideal S200000 .f32)
      = shapeCast S200000 (extractStridedSlice S1x200000 ![0, 0] (scoreRow m c) slices_S1x200704_S1x200000_0_0) shapeCasts_S1x200000_S200000 := by
  show StableHlo.after hostOps2 (W8 m ρ c) (Proc.devRef .tc main_v14) = _
  after_results
  rw [show W8 m ρ c (Proc.devRef .tc main_v12) = scoreRow m c from (W8_arr m ρ c 4).trans (final1 m ρ c hE)]
  rfl

/-- THE COMMON VALUE: the score of every edge of the list over the specification's node features. -/
def result (c : Dev nD) : Vec Ideal S200000 .f32 := fun o =>
  Cert.Spec.score
    (Cert.Spec.feat (fun i k => zA m c (ix2 i k)) (fun k d => w1A m c (ix2 k d)) (fun d => b1A m c (ix1 d))
      (fun k d => w2A m c (ix2 k d)) (fun d => b2A m c (ix1 d)))
    (biasA m c (ix1 (0 : Fin 1)))
    (Cert.Spec.node (eA m c (ix2 (0 : Fin 2) (⟨(o 0).val, (o 0).isLt⟩ : Fin 200000))))
    (Cert.Spec.node (eA m c (ix2 (1 : Fin 2) (⟨(o 0).val, (o 0).isLt⟩ : Fin 200000))))

/-- The transposed table, read back by node and feature, is the specification's node features. -/
theorem featT_tr (c : Dev nD) :
    (fun (i : Fin 1024) (d : Fin 128) => featT m c (ix2 d i))
      = Cert.Spec.feat (fun i k => zA m c (ix2 i k)) (fun k d => w1A m c (ix2 k d)) (fun d => b1A m c (ix1 d))
          (fun k d => w2A m c (ix2 k d)) (fun d => b2A m c (ix1 d)) := by
  funext i d
  unfold featT
  rfl

/-- The result buffer holds the common value. -/
theorem W9_result (c : Dev nD) (hE : ∀ k : S2x200000.Idx, 0 ≤ (eA m c k).toInt ∧ (eA m c k).toInt < 1024) :
    (W9 m ρ c (Proc.devRef .tc main_v14) : Vec Ideal S200000 .f32) = result m c := by
  rw [W9_v14 m ρ c hE]
  funext o
  obtain ⟨e, rfl⟩ : ∃ e : Fin 200000, o = ix1 e := ⟨o 0, eq_ix1 o⟩
  have he : e.val < 200704 := by have := e.isLt; omega
  rw [shapeCast_apply _ shapeCasts_S1x200000_S200000 (ix1 e) (ix2 (0 : Fin 1) e) (by
    rw [Shape.rowMajor_val_two, Shape.rowMajor_val_one]
    show 0 * 200000 + e.val = e.val
    omega)]
  rw [extractStridedSlice_apply ![0, 0] (scoreRow m c) slices_S1x200704_S1x200000_0_0 (ix2 (0 : Fin 1) e)
    (ix2 (0 : Fin 1) (⟨e.val, he⟩ : Fin 200704)) (fun a => by
      match a with
      | ⟨0, _⟩ => rfl
      | ⟨1, _⟩ => show e.val = 0 + e.val; omega)]
  unfold scoreRow result
  rw [featT_tr]
  have hs : srcRow m c (ix2 (0 : Fin 1) (⟨e.val, he⟩ : Fin 200704)) = eA m c (ix2 (0 : Fin 2) e) := by
    rw [srcRow_apply, dif_pos e.isLt]
  have hd : dstRow m c (ix2 (0 : Fin 1) (⟨e.val, he⟩ : Fin 200704)) = eA m c (ix2 (1 : Fin 2) e) := by
    rw [dstRow_apply, dif_pos e.isLt]
  show Cert.Spec.score _ _ (Cert.Spec.node (srcRow m c (ix2 (0 : Fin 1) (⟨e.val, he⟩ : Fin 200704))))
      (Cert.Spec.node (dstRow m c (ix2 (0 : Fin 1) (⟨e.val, he⟩ : Fin 200704))))
    = Cert.Spec.score _ _ (Cert.Spec.node (eA m c (ix2 (0 : Fin 2) e))) (Cert.Spec.node (eA m c (ix2 (1 : Fin 2) e)))
  rw [hs, hd]

end Cert.KernelIdeal.KerRun

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.LibScaleSum.lean ====
/-
  A nonnegative real factor and a finite sum on the extended reals.

  The extended reals' product does not distribute over the sum in general (the sum of `⊤` and `⊥` is `⊥`), but it
  does for a factor that is a nonnegative real. So such a factor moves out of a finite sum, and a sum of products
  whose left factors were all scaled by it is the sum of the unscaled products, scaled.
-/
import Mathlib.Data.EReal.Operations
import Mathlib.Data.EReal.Inv
import Mathlib.Algebra.BigOperators.Group.Finset.Basic
import Mathlib.Data.Fintype.Basic
import Mathlib.Data.Fintype.BigOperators

namespace Cert.Lib

open scoped BigOperators

/-- A factor `s` with `0 ≤ s` and `s ≠ ⊤` moves out of a finite sum of extended reals: by induction on the index
    set, each step by the distributive law that holds for such a factor. -/
theorem sum_mul_of_nonneg_of_ne_top {ι : Type} (t : Finset ι) (f : ι → EReal) {s : EReal} (h0 : 0 ≤ s) (ht : s ≠ ⊤) :
    (∑ k ∈ t, f k) * s = ∑ k ∈ t, f k * s := by
  classical
  induction t using Finset.induction_on with
  | empty => simp
  | insert a t ha ih =>
    rw [Finset.sum_insert ha, Finset.sum_insert ha, EReal.right_distrib_of_nonneg_of_ne_top h0 ht, ih]

/-- Scaling every left factor of a sum of products over `Fin K` by a nonnegative real `s` scales the sum:
    `(a k * s) * w k = (a k * w k) * s` termwise, and `s` moves out of the sum. -/
theorem sum_scaled_mul_eq {K : ℕ} (a w : Fin K → EReal) {s : EReal} (h0 : 0 ≤ s) (ht : s ≠ ⊤) :
    ∑ k : Fin K, (a k * s) * w k = (∑ k : Fin K, a k * w k) * s := by
  rw [sum_mul_of_nonneg_of_ne_top Finset.univ _ h0 ht]
  exact Finset.sum_congr rfl fun k _ => mul_right_comm (a k) s (w k)

end Cert.Lib
-- ==== Proof.LibClamp.lean ====
/-
  Signed clamping of a 32-bit word into [0, hi], for 0 ≤ hi: the two orders of clamping agree
  (max (min x hi) 0 = min hi (max 0 x)), the clamped word is nonnegative and at most hi, so it is never
  "negative" for an index normalisation (a select on x < 0 keeps it), its signed and unsigned readings agree,
  and a further clamp into [0, N − 1] with hi ≤ N − 1 changes nothing.
-/
import Idealize.ShloMosaic.PureOps

namespace Cert.LibClamp

open Idealize.ShloMosaic

/-- The word clamped from above by `hi`, then from below by zero (signed). -/
def clamp (hi x : BitVec 32) : BitVec 32 := IntOp.maxsi (IntOp.minsi x hi) 0#32

theorem toInt_zero32 : (0#32 : BitVec 32).toInt = 0 := by decide

/-- Clamping from below first and from above second gives the same word. -/
theorem min_max_eq_clamp (hi x : BitVec 32) (h : 0 ≤ hi.toInt) :
    IntOp.minsi hi (IntOp.maxsi 0#32 x) = clamp hi x := by
  have h0 := toInt_zero32
  unfold clamp IntOp.minsi IntOp.maxsi
  simp only [BitVec.slt, decide_eq_true_eq]
  split_ifs <;> first | rfl | (apply BitVec.eq_of_toInt_eq; omega) | (exfalso; omega)

/-- The clamped word lies in [0, hi], signed. -/
theorem clamp_toInt (hi x : BitVec 32) (h : 0 ≤ hi.toInt) : 0 ≤ (clamp hi x).toInt ∧ (clamp hi x).toInt ≤ hi.toInt := by
  have h0 := toInt_zero32
  unfold clamp IntOp.minsi IntOp.maxsi
  simp only [BitVec.slt, decide_eq_true_eq]
  split_ifs <;> omega

/-- A word that is nonnegative signed reads the same unsigned. -/
theorem toInt_eq_toNat (c : BitVec 32) (h : 0 ≤ c.toInt) : c.toInt = (c.toNat : Int) := by
  have := c.isLt
  unfold BitVec.toInt at h ⊢
  split at h <;> simp_all <;> omega

/-- The clamped word, unsigned, is at most `hi`. -/
theorem clamp_toNat_le (hi x : BitVec 32) (h : 0 ≤ hi.toInt) : (clamp hi x).toNat ≤ hi.toNat := by
  obtain ⟨h1, h2⟩ := clamp_toInt hi x h
  have e1 := toInt_eq_toNat _ h1
  have e2 := toInt_eq_toNat _ h
  omega

/-- The signed reading of the clamped word, as a natural number, is its unsigned reading. -/
theorem clamp_toInt_toNat (hi x : BitVec 32) (h : 0 ≤ hi.toInt) : (clamp hi x).toInt.toNat = (clamp hi x).toNat := by
  rw [toInt_eq_toNat _ (clamp_toInt hi x h).1]; rfl

/-- The clamped word is not below zero: a comparison `< 0` is the bit 0. -/
theorem clamp_not_neg (hi x : BitVec 32) (h : 0 ≤ hi.toInt) : IntOp.cmpi .slt (clamp hi x) 0#32 = 0#1 := by
  have h0 := toInt_zero32
  have := (clamp_toInt hi x h).1
  unfold IntOp.cmpi
  have : (clamp hi x).slt 0#32 = false := by
    simp only [BitVec.slt, decide_eq_false_iff_not]; omega
  simp [this]

end Cert.LibClamp
-- ==== Proof.LibGatherRows2.lean ====
/-
  `stablehlo.gather` of ROWS of a rank-2 table [N, D] at a column [E, 1] of start indices, read at an index: what
  `x[idx]` of a table `x : [N, D]` at an integer vector `idx : [E]` lowers to (offset_dims [1], collapsed_slice_dims [0],
  start_index_map [0], slice_sizes [1, D], index_vector_dim 1).  Result element (p, r) is the table at row `idx[p, 0]`,
  read as a SIGNED integer and cut into [0, N − 1], and column r.  The same for a vector table [N] (no offset axis):
  result element p is the table's entry at `idx[p, 0]`, read signed and cut into [0, N − 1].
-/
import Idealize.ShloMosaic.PureOps
import Idealize.ShloMosaic.Lib.ValueIdx

noncomputable section

namespace Cert.LibGatherRows2

open Idealize.ShloMosaic Idealize.ShloMosaic.ValueIdx

variable {α : Type}

/-- Those dimension numbers for a table [N, D], start indices [E, 1] and result [E, D]. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (p, r): row `idx[p, 0]` cut into range, column r of the table. -/
theorem gather_rows2_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (p : Fin E) (r : Fin D) :
    Host.gather (rowsDims N D E wf) x idx (ix2 p r)
      = x (ix2 (⟨min (idx (ix2 p (0 : Fin 1))).toInt.toNat (N - 1), by omega⟩ : Fin N) r) := by
  unfold Host.gather
  congr 1
  funext a
  refine Fin.ext ?_
  match a with
  | ⟨0, _⟩ =>
    -- the gathered axis: collapsed (offset coordinate 0), not batched, start-indexed with slice size 1
    show (rowsDims N D E wf).start (ix2 p r) idx 0 + (rowsDims N D E wf).batchCoord (ix2 p r) 0
        + (rowsDims N D E wf).offCoord (ix2 p r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 p r) ⟨List.idxOf (0 : Fin 2) (rowsDims N D E wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: the one offset axis, neither start-indexed nor batched; its coordinate is the result's last
    show (rowsDims N D E wf).start (ix2 p r) idx 1 + (rowsDims N D E wf).batchCoord (ix2 p r) 1
        + (rowsDims N D E wf).offCoord (ix2 p r) 1 = r.val
    rw [GatherDims.batchCoord_eq_zero _ _ _ List.not_mem_nil]
    unfold GatherDims.start
    rw [dif_neg (show (1 : Fin 2) ∉ (rowsDims N D E wf).startIndexMap from (by decide : (1 : Fin 2) ∉ ([0] : List (Fin 2))))]
    simp only [Nat.add_zero, Nat.zero_add]
    rfl

/-- The dimension numbers for a vector table [N], start indices [E, 1] and result [E]. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT p: the table's entry `idx[p, 0]` cut into range. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (p : Fin E) :
    Host.gather (vecDims N E wf) x idx (ix1 p)
      = x (ix1 (⟨min (idx (ix2 p (0 : Fin 1))).toInt.toNat (N - 1), by omega⟩ : Fin N)) := by
  unfold Host.gather
  congr 1
  funext a
  refine Fin.ext ?_
  match a with
  | ⟨0, _⟩ =>
    show (vecDims N E wf).start (ix1 p) idx 0 + (vecDims N E wf).batchCoord (ix1 p) 0
        + (vecDims N E wf).offCoord (ix1 p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 p) ⟨List.idxOf (0 : Fin 1) (vecDims N E wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

end Cert.LibGatherRows2

end
-- ==== Proof.RefNodes.lean ====
/-
  The reference's node features are the specification's: both graph-convolution layers of the reference, read index by
  index.
-/
import proofs.«402322_j26242250179179_3_alg».proof.Proof.Gen.ReferenceIdeal.Read
import proofs.«402322_j26242250179179_3_alg».proof.Proof.Spec
import proofs.«402322_j26242250179179_3_alg».proof.Proof.LibScatterRows
import proofs.«402322_j26242250179179_3_alg».proof.Proof.LibScaleSum
import proofs.«402322_j26242250179179_3_alg».proof.Proof.LibClamp
import proofs.«402322_j26242250179179_3_alg».proof.Proof.LibGatherRows2
import Idealize.ShloMosaic.PureOps.Ideal.Laws
import Idealize.ShloMosaic.Lib.ValueIdx
import Idealize.ShloMosaic.Lib.Pipeline.Value

noncomputable section

namespace Cert.RefNodes

open Idealize.ShloMosaic Idealize.ShloMosaic.ValueIdx Cert.ReferenceIdeal Cert.ReferenceIdeal.Gen Cert.ReferenceIdeal.Read

/-! ### Edges, their end points as 32-bit words, and the sum over all edges -/

section words

variable {F : FTy → Type} [FloatOps F]

/-- Edge `e` of the complete graph leaves node `e / 1024`. -/
theorem src_apply (e : Fin 1048576) : val_main_v2 (F := F) (ix1 e) = BitVec.ofNat 32 (e.val / 1024) := by
  rw [val_main_v2_apply, val_main_v1_apply, val_main_v0_apply]

/-- Edge `e` of the complete graph enters node `e % 1024`. -/
theorem dst_apply (e : Fin 1048576) : val_main_v6 (F := F) (ix1 e) = BitVec.ofNat 32 (e.val % 1024) := by
  rw [val_main_v6_apply, val_main_v5_apply, val_main_v4_apply, val_main_v3_apply]
  show BitVec.ofNat 32 (0 * 1024 + e.val % 1024) = _
  rw [Nat.zero_mul, Nat.zero_add]

end words

/-- A number below 1024, as a 32-bit word, reads back signed as itself. -/
theorem toInt_small (n : Nat) (h : n < 1024) : (BitVec.ofNat 32 n).toInt = (n : Int) := by
  have h1 : (BitVec.ofNat 32 n).toNat = n := by
    rw [BitVec.toNat_ofNat]; exact Nat.mod_eq_of_lt (by omega)
  unfold BitVec.toInt
  rw [h1]
  split <;> omega

/-- A word that is not negative is kept by the wrap-around of negative indices (add 1024 where below zero). -/
theorem norm_keep (w : BitVec 32) (h : 0 ≤ w.toInt) :
    Scalar.select (IntOp.cmpi .slt w 0#32) (IntOp.addi w 1024#32) w = w := by
  have h0 : (0#32 : BitVec 32).toInt = 0 := by decide
  have hs : w.slt 0#32 = false := by
    simp only [BitVec.slt, decide_eq_false_iff_not]; omega
  unfold Scalar.select IntOp.cmpi
  simp [hs]

/-- Edges as pairs (source, destination). -/
def edgeEquiv : Fin 1024 × Fin 1024 ≃ Fin 1048576 where
  toFun p := ⟨p.1.val * 1024 + p.2.val, by have := p.1.isLt; have := p.2.isLt; omega⟩
  invFun e := (⟨e.val / 1024, by have := e.isLt; omega⟩, ⟨e.val % 1024, by omega⟩)
  left_inv p := by
    have h1 := p.1.isLt; have h2 := p.2.isLt
    refine Prod.ext (Fin.ext ?_) (Fin.ext ?_)
    · show (p.1.val * 1024 + p.2.val) / 1024 = p.1.val; omega
    · show (p.1.val * 1024 + p.2.val) % 1024 = p.2.val; omega
  right_inv e := by
    refine Fin.ext ?_
    show e.val / 1024 * 1024 + e.val % 1024 = e.val; omega

/-- A sum over all edges is the double sum over sources and destinations. -/
theorem sum_edges {M : Type*} [AddCommMonoid M] (f : Fin 1048576 → M) :
    ∑ e, f e = ∑ s : Fin 1024, ∑ t : Fin 1024, f (edgeEquiv (s, t)) := by
  rw [← Equiv.sum_comp edgeEquiv f, Fintype.sum_prod_type]

/-! ### Constants -/

/-- The word of `1.0` denotes 1. -/
theorem one_lit : Ideal.ofBits .f32 0x3F800000#32 = 1 := by
  simp [Ideal.ofBits, Ideal.ieee, -EReal.coe_mul]; norm_num

/-- The scale is the real 1/1024. -/
theorem scale_eq : Cert.Spec.scale = (((1024 : ℝ)⁻¹ : ℝ) : EReal) := by
  unfold Cert.Spec.scale
  simp [Ideal.ofBits, Ideal.ieee, -EReal.coe_mul]; norm_num

/-- The reciprocal square root of the degree 1024 is 1/32. -/
theorem rsqrt_1024 : Ideal.rsqrt ((1024 : ℝ) : EReal) = (((32 : ℝ)⁻¹ : ℝ) : EReal) := by
  rw [Ideal.rsqrt_coe, if_neg (by norm_num), if_neg (by norm_num)]
  have h : Real.sqrt 1024 = 32 := by
    rw [show (1024 : ℝ) = 32 ^ 2 by norm_num]; exact Real.sqrt_sq (by norm_num)
  rw [h]

/-- An edge's normalisation (1/32)·(1/32) is the scale. -/
theorem inv32_sq : (((32 : ℝ)⁻¹ : ℝ) : EReal) * (((32 : ℝ)⁻¹ : ℝ) : EReal) = Cert.Spec.scale := by
  rw [scale_eq, ← EReal.coe_mul]
  congr 1
  norm_num

/-- Every node has degree 1024. -/
theorem degree (zero : (⟨S1024, .f32⟩ : BufTy).Contents (Elt Ideal)) (ones : (⟨S1048576, .f32⟩ : BufTy).Contents (Elt Ideal))
    (dst : (⟨S1048576x1, .i32⟩ : BufTy).Contents (Elt Ideal))
    (hz : ∀ j, zero j = 0) (ho : ∀ e, ones e = 1)
    (hd : ∀ e : Fin 1048576, (dst (ix2 e 0)).toInt = ((e.val % 1024 : Nat) : Int)) (j : Fin 1024) :
    Host.scatterAdd (F := Ideal) (φ := .f32) scatter_S1024_S1048576x1_S1048576_n_0_0_1 zero dst ones (ix1 j) = ((1024 : ℝ) : EReal) := by
  show Ideal.hostScatterAdd (ScatterRows.dims1 Facts₀.scatter_S1024_S1048576x1_S1048576_n_0_0_1_wf) zero dst ones (ix1 j) = _
  rw [ScatterRows.vscatterAdd_apply, hz, zero_add, sum_edges]
  have key : ∀ s t : Fin 1024, ((edgeEquiv (s, t)).val % 1024) = t.val := by
    intro s t; show (s.val * 1024 + t.val) % 1024 = t.val; have := t.isLt; omega
  simp only [hd, ho, key]
  have inner : (∑ t : Fin 1024, if ((t.val : ℕ) : ℤ) = ((j.val : ℕ) : ℤ) then (1 : EReal) else 0) = 1 := by
    rw [Finset.sum_eq_single j]
    · rw [if_pos rfl]
    · intro t _ ht; rw [if_neg]; intro h; exact ht (Fin.ext (by exact_mod_cast h))
    · intro h; exact absurd (Finset.mem_univ j) h
  rw [inner]
  show (∑ _s : Fin 1024, (1 : EReal)) = ((1024 : ℝ) : EReal)
  rw [Finset.sum_const, Finset.card_univ, Fintype.card_fin, ← EReal.coe_one, ← EReal.coe_nsmul]
  congr 1
  norm_num

/-- The scale is a nonnegative real, so it moves out of finite sums. -/
theorem scale_nonneg : 0 ≤ Cert.Spec.scale := by
  rw [scale_eq]; exact EReal.coe_nonneg.2 (by norm_num)

theorem scale_ne_top : Cert.Spec.scale ≠ ⊤ := by
  rw [scale_eq]; exact EReal.coe_ne_top _

/-- The normalisation of every edge is the scale: both gathered factors are 1/32 wherever they are read. -/
theorem norm_scale (deg : (⟨S1024, .f32⟩ : BufTy).Contents (Elt Ideal)) (hdeg : ∀ j : Fin 1024, deg (ix1 j) = ((1024 : ℝ) : EReal))
    (a b : (⟨S1048576x1, .i32⟩ : BufTy).Contents (Elt Ideal)) (e : Fin 1048576) :
    FloatOps.mulf (F := Ideal) (φ := .f32)
      (Host.gather gather_S1024_S1048576x1_S1048576_n_0_n_n_0_1_1 (Host.rsqrt (F := Ideal) (φ := .f32) deg) a (ix1 e))
      (Host.gather gather_S1024_S1048576x1_S1048576_n_0_n_n_0_1_1 (Host.rsqrt (F := Ideal) (φ := .f32) deg) b (ix1 e)) = Cert.Spec.scale := by
  have hg : ∀ c : (⟨S1048576x1, .i32⟩ : BufTy).Contents (Elt Ideal),
      Host.gather gather_S1024_S1048576x1_S1048576_n_0_n_n_0_1_1 (Host.rsqrt (F := Ideal) (φ := .f32) deg) c (ix1 e) = (((32 : ℝ)⁻¹ : ℝ) : EReal) := by
    intro c
    show Host.gather (Cert.LibGatherRows2.vecDims 1024 1048576 Facts₀.gather_S1024_S1048576x1_S1048576_n_0_n_n_0_1_1_wf) _ c (ix1 e) = _
    rw [Cert.LibGatherRows2.gather_vec_apply (by norm_num)]
    show Ideal.rsqrt (deg (ix1 _)) = _
    rw [hdeg, rsqrt_1024]
  rw [hg a, hg b]
  exact inv32_sq

/-- One layer's aggregation: gathering the rows at the sources, scaling, and adding them up at the destinations gives,
    at every node, the scaled column sum. -/
theorem aggregate (h zero : (⟨S1024x128, .f32⟩ : BufTy).Contents (Elt Ideal))
    (src dst : (⟨S1048576x1, .i32⟩ : BufTy).Contents (Elt Ideal))
    (upd : (⟨S1048576x128, .f32⟩ : BufTy).Contents (Elt Ideal))
    (hz : ∀ i, zero i = 0)
    (hs : ∀ e : Fin 1048576, (src (ix2 e 0)).toInt = ((e.val / 1024 : Nat) : Int))
    (hd : ∀ e : Fin 1048576, (dst (ix2 e 0)).toInt = ((e.val % 1024 : Nat) : Int))
    (hu : ∀ (e : Fin 1048576) (d : Fin 128), upd (ix2 e d)
      = Host.gather gather_S1024x128_S1048576x1_S1048576x128_1_0_n_n_0_1_1128 h src (ix2 e d) * Cert.Spec.scale)
    (j : Fin 1024) (d : Fin 128) :
    Host.scatterAdd (F := Ideal) (φ := .f32) scatter_S1024x128_S1048576x1_S1048576x128_1_0_0_1 zero dst upd (ix2 j d)
      = (∑ i : Fin 1024, h (ix2 i d)) * Cert.Spec.scale := by
  show Ideal.hostScatterAdd (ScatterRows.dims2 Facts₀.scatter_S1024x128_S1048576x1_S1048576x128_1_0_0_1_wf) zero dst upd (ix2 j d) = _
  rw [ScatterRows.scatterAdd_apply, hz, zero_add, sum_edges]
  have key : ∀ s t : Fin 1024, ((edgeEquiv (s, t)).val % 1024) = t.val := by
    intro s t; show (s.val * 1024 + t.val) % 1024 = t.val; have := t.isLt; omega
  have key2 : ∀ s t : Fin 1024, ((edgeEquiv (s, t)).val / 1024) = s.val := by
    intro s t; show (s.val * 1024 + t.val) / 1024 = s.val; have := t.isLt; omega
  have hgat : ∀ s t : Fin 1024,
      Host.gather gather_S1024x128_S1048576x1_S1048576x128_1_0_n_n_0_1_1128 h src (ix2 (edgeEquiv (s, t)) d) = h (ix2 s d) := by
    intro s t
    show Host.gather (Cert.LibGatherRows2.rowsDims 1024 128 1048576 Facts₀.gather_S1024x128_S1048576x1_S1048576x128_1_0_n_n_0_1_1128_wf) h src (ix2 _ d) = _
    rw [Cert.LibGatherRows2.gather_rows2_apply (by norm_num)]
    congr 2
    refine Fin.ext ?_
    show min (src (ix2 (edgeEquiv (s, t)) 0)).toInt.toNat (1024 - 1) = s.val
    rw [hs, key2]
    have := s.isLt
    omega
  simp only [hu, hgat, hd, key]
  have inner : ∀ s : Fin 1024, (∑ t : Fin 1024, if ((t.val : ℕ) : ℤ) = ((j.val : ℕ) : ℤ) then h (ix2 s d) * Cert.Spec.scale else 0)
      = h (ix2 s d) * Cert.Spec.scale := by
    intro s
    rw [Finset.sum_eq_single j]
    · rw [if_pos rfl]
    · intro t _ ht; rw [if_neg]; intro h; exact ht (Fin.ext (by exact_mod_cast h))
    · intro h; exact absurd (Finset.mem_univ j) h
  simp only [inner]
  exact (Cert.Lib.sum_mul_of_nonneg_of_ne_top Finset.univ _ scale_nonneg scale_ne_top).symm

/-! ### The reference's index columns and normalisation -/

/-- The word of `0.0` denotes 0. -/
theorem zero_lit : FloatOps.ofBits (F := Ideal) .f32 0x00000000#32 = (0 : EReal) := Ideal.ofBits_zero_f32

/-- An index below 1024 survives the wrap-around of negative indices. -/
theorem keep_toInt (n : ℕ) (hn : n < 1024) :
    (Scalar.select (IntOp.cmpi .slt (BitVec.ofNat 32 n) 0#32) (IntOp.addi (BitVec.ofNat 32 n) 1024#32) (BitVec.ofNat 32 n)).toInt
      = (n : ℤ) := by
  have ht := toInt_small n hn
  rw [norm_keep _ (by rw [ht]; omega), ht]

/-- The destination columns (four copies of one broadcast) hold `e % 1024` at edge `e`, read signed. -/
theorem v10_toInt (e : Fin 1048576) : (val_main_v10 (F := Ideal) (ix2 e 0)).toInt = ((e.val % 1024 : ℕ) : ℤ) := by
  have hi : idx_main_v10 (ix2 e 0) = ix1 e := eq_ix1 _
  rw [val_main_v10_apply, hi, dst_apply, toInt_small _ (by omega)]

theorem v39_toInt (e : Fin 1048576) : (val_main_v39 (F := Ideal) (ix2 e 0)).toInt = ((e.val % 1024 : ℕ) : ℤ) := by
  have hi : idx_main_v39 (ix2 e 0) = ix1 e := eq_ix1 _
  rw [val_main_v39_apply, hi, dst_apply, toInt_small _ (by omega)]

theorem v49_toInt (e : Fin 1048576) : (val_main_v49 (F := Ideal) (ix2 e 0)).toInt = ((e.val % 1024 : ℕ) : ℤ) := by
  have hi : idx_main_v49 (ix2 e 0) = ix1 e := eq_ix1 _
  rw [val_main_v49_apply, hi, dst_apply, toInt_small _ (by omega)]

theorem v78_toInt (e : Fin 1048576) : (val_main_v78 (F := Ideal) (ix2 e 0)).toInt = ((e.val % 1024 : ℕ) : ℤ) := by
  have hi : idx_main_v78 (ix2 e 0) = ix1 e := eq_ix1 _
  rw [val_main_v78_apply, hi, dst_apply, toInt_small _ (by omega)]

/-- The source columns after the wrap-around of negative indices (two copies) hold `e / 1024` at edge `e`, read signed. -/
theorem v33_toInt (e : Fin 1048576) : (val_main_v33 (F := Ideal) (ix2 e 0)).toInt = ((e.val / 1024 : ℕ) : ℤ) := by
  have hi : idx_main_v33 (ix2 e 0) = ix1 e := eq_ix1 _
  rw [val_main_v33_apply, hi, val_main_v32_apply, val_main_v29_apply, val_main_v31_apply, val_main_v28_apply,
    val_main_v30_apply, val_main_c_4_apply, val_main_c_5_apply, src_apply]
  exact keep_toInt _ (by have := e.isLt; omega)

theorem v72_toInt (e : Fin 1048576) : (val_main_v72 (F := Ideal) (ix2 e 0)).toInt = ((e.val / 1024 : ℕ) : ℤ) := by
  have hi : idx_main_v72 (ix2 e 0) = ix1 e := eq_ix1 _
  rw [val_main_v72_apply, hi, val_main_v71_apply, val_main_v68_apply, val_main_v70_apply, val_main_v67_apply,
    val_main_v69_apply, val_main_c_13_apply, val_main_c_14_apply, src_apply]
  exact keep_toInt _ (by have := e.isLt; omega)

/-- The degree vectors (one per layer): 1024 at every node. -/
theorem v11_apply (j : Fin 1024) : val_main_v11 (F := Ideal) (ix1 j) = ((1024 : ℝ) : EReal) := by
  unfold val_main_v11
  refine degree _ _ _ (fun i => ?_) (fun e => ?_) v10_toInt j
  · rw [val_main_v9_apply, val_main_cst_0_apply]; exact zero_lit
  · rw [val_main_v8_apply, val_main_cst_apply]; exact one_lit

theorem v50_apply (j : Fin 1024) : val_main_v50 (F := Ideal) (ix1 j) = ((1024 : ℝ) : EReal) := by
  unfold val_main_v50
  refine degree _ _ _ (fun i => ?_) (fun e => ?_) v49_toInt j
  · rw [val_main_v48_apply, val_main_cst_8_apply]; exact zero_lit
  · rw [val_main_v47_apply, val_main_cst_7_apply]; exact one_lit

/-- The normalisation broadcast along the feature axis (one per layer): the scale at every edge and column. -/
theorem v36_apply (e : Fin 1048576) (d : Fin 128) : val_main_v36 (F := Ideal) (ix2 e d) = Cert.Spec.scale := by
  have hi : idx_main_v35 (idx_main_v36 (ix2 e d)) = ix1 e := eq_ix1 _
  rw [val_main_v36_apply, val_main_v35_apply, hi, val_main_v27_apply]
  exact norm_scale _ v11_apply _ _ e

theorem v75_apply (e : Fin 1048576) (d : Fin 128) : val_main_v75 (F := Ideal) (ix2 e d) = Cert.Spec.scale := by
  have hi : idx_main_v74 (idx_main_v75 (ix2 e d)) = ix1 e := eq_ix1 _
  rw [val_main_v75_apply, val_main_v74_apply, hi, val_main_v66_apply]
  exact norm_scale _ v50_apply _ _ e

/-! ### The two layers -/

section layers

variable (z : (⟨S1024x128, .f32⟩ : BufTy).Contents (Elt Ideal)) (W1 : (⟨S128x128, .f32⟩ : BufTy).Contents (Elt Ideal))
  (b1 : (⟨S128, .f32⟩ : BufTy).Contents (Elt Ideal)) (W2 : (⟨S128x128, .f32⟩ : BufTy).Contents (Elt Ideal))

/-- The first projection at (i, d). -/
theorem v7_eq (i : Fin 1024) (d : Fin 128) :
    val_main_v7 (F := Ideal) z W1 (ix2 i d) = ∑ k : Fin 128, z (ix2 i k) * W1 (ix2 k d) := by
  rw [val_main_v7_apply]
  refine Finset.sum_congr rfl fun k _ => ?_
  have hl : lidx_main_v7 (ix2 i d) k = ix2 i k := eq_ix2 _
  have hr : ridx_main_v7 (ix2 i d) k = ix2 k d := eq_ix2 _
  rw [hl, hr]

/-- The first layer's aggregate: the scaled column sum of the projection, at every node. -/
theorem v40_eq (j : Fin 1024) (d : Fin 128) :
    val_main_v40 (F := Ideal) z W1 (ix2 j d)
      = (∑ i : Fin 1024, ∑ k : Fin 128, z (ix2 i k) * W1 (ix2 k d)) * Cert.Spec.scale := by
  unfold val_main_v40
  refine (aggregate (val_main_v7 (F := Ideal) z W1) _ (val_main_v33 (F := Ideal)) _ _ (fun i => ?_) v33_toInt v39_toInt
    (fun e d => ?_) j d).trans ?_
  · rw [val_main_v38_apply, val_main_cst_6_apply]; exact zero_lit
  · rw [val_main_v37_apply, v36_apply]; rfl
  · simp only [v7_eq]

/-- The hidden features. -/
theorem v45_eq (i : Fin 1024) (d : Fin 128) :
    val_main_v45 (F := Ideal) z W1 b1 (ix2 i d)
      = Cert.Spec.hid (fun i k => z (ix2 i k)) (fun k d => W1 (ix2 k d)) (fun d => b1 (ix1 d)) i d := by
  have hb : idx_main_v41 (idx_main_v42 (ix2 i d)) = ix1 d := eq_ix1 _
  rw [val_main_v45_apply, val_main_v44_apply, val_main_v43_apply, v40_eq, val_main_v42_apply, val_main_v41_apply, hb,
    val_main_call0_v0_apply, val_main_call0_cst_apply, zero_lit]
  rfl

/-- The second projection at (i, d). -/
theorem v46_eq (i : Fin 1024) (d : Fin 128) :
    val_main_v46 (F := Ideal) z W1 b1 W2 (ix2 i d)
      = ∑ k : Fin 128, Cert.Spec.hid (fun i k => z (ix2 i k)) (fun k d => W1 (ix2 k d)) (fun d => b1 (ix1 d)) i k * W2 (ix2 k d) := by
  rw [val_main_v46_apply]
  refine Finset.sum_congr rfl fun k _ => ?_
  have hl : lidx_main_v46 (ix2 i d) k = ix2 i k := eq_ix2 _
  have hr : ridx_main_v46 (ix2 i d) k = ix2 k d := eq_ix2 _
  rw [hl, hr, v45_eq]

/-- The second layer's aggregate. -/
theorem v79_eq (j : Fin 1024) (d : Fin 128) :
    val_main_v79 (F := Ideal) z W1 b1 W2 (ix2 j d)
      = (∑ i : Fin 1024, ∑ k : Fin 128,
          Cert.Spec.hid (fun i k => z (ix2 i k)) (fun k d => W1 (ix2 k d)) (fun d => b1 (ix1 d)) i k * W2 (ix2 k d))
        * Cert.Spec.scale := by
  unfold val_main_v79
  refine (aggregate (val_main_v46 (F := Ideal) z W1 b1 W2) _ (val_main_v72 (F := Ideal)) _ _ (fun i => ?_) v72_toInt v78_toInt
    (fun e d => ?_) j d).trans ?_
  · rw [val_main_v77_apply, val_main_cst_15_apply]; exact zero_lit
  · rw [val_main_v76_apply, v75_apply]; rfl
  · simp only [v46_eq]

end layers

/-- The reference's node features after both layers, at node `i` and column `d`. -/
theorem ref_feat (z : (⟨S1024x128, .f32⟩ : BufTy).Contents (Elt Ideal)) (W1 : (⟨S128x128, .f32⟩ : BufTy).Contents (Elt Ideal))
    (b1 : (⟨S128, .f32⟩ : BufTy).Contents (Elt Ideal)) (W2 : (⟨S128x128, .f32⟩ : BufTy).Contents (Elt Ideal))
    (b2 : (⟨S128, .f32⟩ : BufTy).Contents (Elt Ideal)) (i : Fin 1024) (d : Fin 128) :
    val_main_v83 (F := Ideal) z W1 b1 W2 b2 (ix2 i d)
      = Cert.Spec.feat (fun i k => z (ix2 i k)) (fun k d => W1 (ix2 k d)) (fun d => b1 (ix1 d))
          (fun k d => W2 (ix2 k d)) (fun d => b2 (ix1 d)) i d := by
  have hb : idx_main_v80 (idx_main_v81 (ix2 i d)) = ix1 d := eq_ix1 _
  rw [val_main_v83_apply, val_main_v82_apply, v79_eq, val_main_v81_apply, val_main_v80_apply, hb, v45_eq]
  rfl

end Cert.RefNodes

end
-- ==== Proof.RefScore.lean ====
/-
  The reference's edge scores over its node features: two row gathers at the edge's end points, the inner product of the
  two rows, the bias, the logistic function.
-/
import proofs.«402322_j26242250179179_3_alg».proof.Proof.Gen.ReferenceIdeal.Read
import proofs.«402322_j26242250179179_3_alg».proof.Proof.Spec
import proofs.«402322_j26242250179179_3_alg».proof.Proof.LibClamp
import proofs.«402322_j26242250179179_3_alg».proof.Proof.LibGatherRows2
import Idealize.ShloMosaic.PureOps.Ideal.Laws
import Idealize.ShloMosaic.Lib.ValueIdx
import Idealize.ShloMosaic.Lib.Pipeline.Value

noncomputable section

namespace Cert.RefScore

open Idealize.ShloMosaic Idealize.ShloMosaic.ValueIdx Cert.ReferenceIdeal Cert.ReferenceIdeal.Gen Cert.ReferenceIdeal.Read

/-- The index normalisation (add 1024 to a negative word) leaves a word that is not negative as it is. -/
theorem norm_id (x : BitVec 32) (h : 0 ≤ x.toInt) :
    Scalar.select (IntOp.cmpi .slt x 0#32) (IntOp.addi x 1024#32) x = x := by
  have h0 : (0#32 : BitVec 32).toInt = 0 := by decide
  have hs : x.slt 0#32 = false := by
    simp only [BitVec.slt, decide_eq_false_iff_not]; omega
  unfold Scalar.select IntOp.cmpi
  simp [hs]

/-- The column of source end points, normalised: entry e is the edge list's entry (0, e). -/
theorem src_idx (E : (⟨S2x200000, .i32⟩ : BufTy).Contents (Elt Ideal))
    (hE : ∀ k : S2x200000.Idx, 0 ≤ (E k).toInt ∧ (E k).toInt < 1024) (e : Fin 200000) :
    val_main_v91 (F := Ideal) E (ix2 e (0 : Fin 1)) = E (ix2 (0 : Fin 2) e) := by
  rw [val_main_v91_apply, val_main_v90_apply, val_main_v87_apply, val_main_v89_apply, val_main_v85_apply,
    val_main_v84_apply, val_main_v86_apply, val_main_v88_apply, val_main_c_16_apply, val_main_c_17_apply]
  have hi : idx_main_v84 (idx_main_v85 (idx_main_v91 (ix2 e (0 : Fin 1)))) = ix2 (0 : Fin 2) e := by
    funext a; refine Fin.ext ?_
    match a with
    | ⟨0, _⟩ => rfl
    | ⟨1, _⟩ => show e.val % 200000 = e.val; exact Nat.mod_eq_of_lt e.isLt
  rw [hi]
  exact norm_id _ (hE _).1

/-- The column of target end points, normalised: entry e is the edge list's entry (1, e). -/
theorem dst_idx (E : (⟨S2x200000, .i32⟩ : BufTy).Contents (Elt Ideal))
    (hE : ∀ k : S2x200000.Idx, 0 ≤ (E k).toInt ∧ (E k).toInt < 1024) (e : Fin 200000) :
    val_main_v100 (F := Ideal) E (ix2 e (0 : Fin 1)) = E (ix2 (1 : Fin 2) e) := by
  rw [val_main_v100_apply, val_main_v99_apply, val_main_v96_apply, val_main_v98_apply, val_main_v94_apply,
    val_main_v93_apply, val_main_v95_apply, val_main_v97_apply, val_main_c_18_apply, val_main_c_19_apply]
  have hi : idx_main_v93 (idx_main_v94 (idx_main_v100 (ix2 e (0 : Fin 1)))) = ix2 (1 : Fin 2) e := by
    funext a; refine Fin.ext ?_
    match a with
    | ⟨0, _⟩ => rfl
    | ⟨1, _⟩ => show e.val % 200000 = e.val; exact Nat.mod_eq_of_lt e.isLt
  rw [hi]
  exact norm_id _ (hE _).1

/-- The gathered source rows: row e is the features' row at the node the edge list's entry (0, e) names. -/
theorem gather_src (z : (⟨S1024x128, .f32⟩ : BufTy).Contents (Elt Ideal)) (E : (⟨S2x200000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (hE : ∀ k : S2x200000.Idx, 0 ≤ (E k).toInt ∧ (E k).toInt < 1024) (e : Fin 200000) (r : Fin 128) :
    val_main_v92 (F := Ideal) z E W1 b1 W2 b2 (ix2 e r)
      = val_main_v83 (F := Ideal) z W1 b1 W2 b2 (ix2 (Cert.Spec.node (E (ix2 (0 : Fin 2) e))) r) := by
  have hs := src_idx E hE e
  unfold val_main_v92
  generalize val_main_v83 (F := Ideal) z W1 b1 W2 b2 = h
  generalize val_main_v91 (F := Ideal) E = idx at hs
  refine (Cert.LibGatherRows2.gather_rows2_apply (N := 1024) (D := 128) (E := 200000) (by decide)
    Facts₀.gather_S1024x128_S200000x1_S200000x128_1_0_n_n_0_1_1128_wf h idx e r).trans ?_
  refine congrArg h (funext fun a => Fin.ext ?_)
  match a with
  | ⟨0, _⟩ =>
    show min (idx (ix2 e (0 : Fin 1))).toInt.toNat (1024 - 1) = min (E (ix2 (0 : Fin 2) e)).toInt.toNat 1023
    rw [hs]
  | ⟨1, _⟩ => rfl

/-- The gathered target rows: row e is the features' row at the node the edge list's entry (1, e) names. -/
theorem gather_dst (z : (⟨S1024x128, .f32⟩ : BufTy).Contents (Elt Ideal)) (E : (⟨S2x200000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (hE : ∀ k : S2x200000.Idx, 0 ≤ (E k).toInt ∧ (E k).toInt < 1024) (e : Fin 200000) (r : Fin 128) :
    val_main_v101 (F := Ideal) z E W1 b1 W2 b2 (ix2 e r)
      = val_main_v83 (F := Ideal) z W1 b1 W2 b2 (ix2 (Cert.Spec.node (E (ix2 (1 : Fin 2) e))) r) := by
  have hs := dst_idx E hE e
  unfold val_main_v101
  generalize val_main_v83 (F := Ideal) z W1 b1 W2 b2 = h
  generalize val_main_v100 (F := Ideal) E = idx at hs
  refine (Cert.LibGatherRows2.gather_rows2_apply (N := 1024) (D := 128) (E := 200000) (by decide)
    Facts₀.gather_S1024x128_S200000x1_S200000x128_1_0_n_n_0_1_1128_wf h idx e r).trans ?_
  refine congrArg h (funext fun a => Fin.ext ?_)
  match a with
  | ⟨0, _⟩ =>
    show min (idx (ix2 e (0 : Fin 1))).toInt.toNat (1024 - 1) = min (E (ix2 (1 : Fin 2) e)).toInt.toNat 1023
    rw [hs]
  | ⟨1, _⟩ => rfl

/-- The binary32 word of one denotes 1. -/
theorem ofBits_one : Ideal.ofBits .f32 0x3F800000#32 = 1 := by
  simp [Ideal.ofBits, Ideal.ieee, -EReal.coe_mul]; norm_num

/-- The bias as a rank-0 array: its one entry is the one-element array's entry. -/
theorem bias_scalar (bias : (⟨S1, .f32⟩ : BufTy).Contents (Elt Ideal)) (j : S_.Idx) :
    val_main_v104 (F := Ideal) bias j = bias (ix1 (0 : Fin 1)) := by
  unfold val_main_v104
  exact shapeCast_apply bias Facts₀.shapeCasts_S1_S_ j (ix1 (0 : Fin 1)) (by
    rewrite [Shape.rowMajor_val_one]
    have h1 : (S_.rowMajor j).val < S_.numel := (S_.rowMajor j).isLt
    have h2 : S_.numel = 1 := by unfold Shape.numel; exact Fin.prod_univ_zero _
    show (0 : Nat) = _
    omega)

/-- The reference's result at edge `e`, when every end point is a node number: the score of the edge over the reference's
    own node features. -/
theorem ref_score (z : (⟨S1024x128, .f32⟩ : BufTy).Contents (Elt Ideal)) (E : (⟨S2x200000, .i32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (bias : (⟨S1, .f32⟩ : BufTy).Contents (Elt Ideal))
    (hE : ∀ k : S2x200000.Idx, 0 ≤ (E k).toInt ∧ (E k).toInt < 1024) (e : Fin 200000) :
    val_main_v112 (F := Ideal) z E W1 b1 W2 b2 bias (ix1 e)
      = Cert.Spec.score (fun i d => val_main_v83 (F := Ideal) z W1 b1 W2 b2 (ix2 i d)) (bias (ix1 (0 : Fin 1)))
          (Cert.Spec.node (E (ix2 (0 : Fin 2) e))) (Cert.Spec.node (E (ix2 (1 : Fin 2) e))) := by
  -- the logistic tail, read at e, down to the row sum of the products of the two gathered rows
  rw [val_main_v112_apply, val_main_v111_apply, val_main_cst_22_apply, val_main_v110_apply, val_main_v109_apply,
    val_main_cst_21_apply, val_main_v108_apply, val_main_v107_apply, val_main_v106_apply, val_main_v105_apply,
    val_main_v103_apply, val_main_cst_20_apply, bias_scalar]
  -- each product is the product of the features' entries at the two end points
  have hsum : ∀ k : Fin 128, val_main_v102 (F := Ideal) z E W1 b1 W2 b2 (idx_main_v103 (ix1 e) k)
      = val_main_v83 (F := Ideal) z W1 b1 W2 b2 (ix2 (Cert.Spec.node (E (ix2 (0 : Fin 2) e))) k)
        * val_main_v83 (F := Ideal) z W1 b1 W2 b2 (ix2 (Cert.Spec.node (E (ix2 (1 : Fin 2) e))) k) := by
    intro k
    have hk : idx_main_v103 (ix1 e) k = ix2 e k := by
      funext a; refine Fin.ext ?_
      match a with
      | ⟨0, _⟩ => rfl
      | ⟨1, _⟩ => rfl
    rw [hk, val_main_v102_apply, gather_src z E W1 b1 W2 b2 hE, gather_dst z E W1 b1 W2 b2 hE]
    rfl
  rw [Finset.sum_congr rfl (fun k _ => hsum k)]
  generalize val_main_v83 (F := Ideal) z W1 b1 W2 b2 = h
  simp only [Ideal.ofBits_def, Ideal.ofBits_zero_f32, ofBits_one, Ideal.hostDivf_def, Ideal.addf_def,
    Ideal.hostUnary_exp_def, Ideal.hostNegf_def, Ideal.negf_def, zero_add]
  rfl

end Cert.RefScore

end
-- ==== Proof.PreRange.lean ====
/-
  What the precondition says of the edge list: every entry is a node number.
-/
import proofs.«402322_j26242250179179_3_alg».proof.Pre_finite_inputs
import proofs.«402322_j26242250179179_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreRange

open Idealize.ShloMosaic Idealize.ShloMosaic.ValueIdx Cert.Pre_finite_inputs

/-- A rank-0 array has one index. -/
instance subsingleton_idx_S_ : Subsingleton S_.Idx := ⟨fun a b => funext fun d => d.elim0⟩

/-- 1024 as a 32-bit word, read signed, is 1024; 0 is 0. -/
theorem toInt_1024 : (1024#32).toInt = 1024 := by decide
theorem toInt_0 : (0#32).toInt = 0 := by decide

/-- Under the precondition every entry of the edge list, read signed, lies in 0 … 1023. -/
theorem range_of_pre [Cert.Pre_finite_inputs.Facts] (z : FVec Ideal S1024x128 .f32) (E : IVec S2x200000 32) (W1 : FVec Ideal S128x128 .f32)
    (b1 : FVec Ideal S128 .f32) (W2 : FVec Ideal S128x128 .f32) (b2 : FVec Ideal S128 .f32) (bias : FVec Ideal S1 .f32)
    (h : Cert.Pre_finite_inputs.fn (F := Ideal) z E W1 b1 W2 b2 bias = fun _ => 1#1) :
    ∀ k : S2x200000.Idx, 0 ≤ (E k).toInt ∧ (E k).toInt < 1024 := by
  -- the predicate at its one index
  have e := congrFun h ix0
  dsimp only [fn, fn_part1, fn_part2] at e
  -- the outermost conjunction: everything before, and "every entry < 1024"
  change IntOp.andi _ _ = 1#1 at e
  obtain ⟨e1, hlt⟩ := IntOp.andi_eq_one.1 e
  -- the next one: everything before, and "every entry ≥ 0"
  change IntOp.andi _ _ = 1#1 at e1
  obtain ⟨-, hge⟩ := IntOp.andi_eq_one.1 e1
  intro k
  -- a conjunction over all entries that is 1 is 1 at entry k
  have a := Host.reduce_andi_all _ _ _ _ _ hge k
  have b := Host.reduce_andi_all _ _ _ _ _ hlt k
  -- entry k of a comparison against a broadcast constant compares E k with the constant
  change IntOp.cmpi .sge (E k) (0#32) = 1#1 at a
  change IntOp.cmpi .slt (E k) (1024#32) = 1#1 at b
  rw [IntOp.cmpi_sge, toInt_0] at a
  rw [IntOp.cmpi_slt, toInt_1024] at b
  exact ⟨a, b⟩

end Cert.PreRange

end
-- ==== Proof.lean ====
/-
  The certificate's claims, assembled.

  Both programs compute, for every edge (s, t) of the list, the logistic function of the inner product of the final node
  features of s and t plus a bias, the node features being two graph-convolution layers over the COMPLETE graph on the 1024
  nodes with self loops. In that graph every node has degree 1024, every edge has normalisation 2⁻¹⁰, and a layer's aggregate
  is the same at every node: the column sum of the projected features, scaled by 2⁻¹⁰. The kernel computes it so; the
  reference computes it by a scatter-add over all 1024² edges, and the two agree on all extended reals, since a nonnegative
  real factor moves out of a finite sum. The kernel picks a node's features by a product with a one-hot matrix, the reference
  by a row gather; they agree when every end point is a node number, 0 ≤ index < 1024, which the precondition states: outside
  that range the reference's gather reads a clamped row where the one-hot product reads zero.

  The frames of the two kernel programs are the generated ones; the reference's frame is its generated run with the result
  dropped; the idealization rewrote nothing, so `preserves` is trivial; `algebraic` puts the kernel program's run, re-posted
  at the common value, beside the reference's run, read at the same value.
-/
import proofs.«402322_j26242250179179_3_alg».proof.Defs
import proofs.«402322_j26242250179179_3_alg».proof.Proof.Gen.Kernel
import proofs.«402322_j26242250179179_3_alg».proof.Proof.Gen.Kernel.Skeleton
import proofs.«402322_j26242250179179_3_alg».proof.Proof.Gen.Kernel.Launch
import proofs.«402322_j26242250179179_3_alg».proof.Proof.Gen.Kernel.Points
import proofs.«402322_j26242250179179_3_alg».proof.Proof.Gen.Kernel.Frame
import proofs.«402322_j26242250179179_3_alg».proof.Proof.Gen.KernelIdeal
import proofs.«402322_j26242250179179_3_alg».proof.Proof.Gen.KernelIdeal.Skeleton
import proofs.«402322_j26242250179179_3_alg».proof.Proof.Gen.KernelIdeal.Launch
import proofs.«402322_j26242250179179_3_alg».proof.Proof.Gen.KernelIdeal.Points
import proofs.«402322_j26242250179179_3_alg».proof.Proof.Gen.KernelIdeal.Frame
import proofs.«402322_j26242250179179_3_alg».proof.Proof.Gen.ReferenceIdeal
import proofs.«402322_j26242250179179_3_alg».proof.Proof.Gen.Pre_finite_inputs
import proofs.«402322_j26242250179179_3_alg».proof.Proof.Gen.ReferenceIdeal.Run
import proofs.«402322_j26242250179179_3_alg».proof.Proof.Gen.ReferenceIdeal.Read
import proofs.«402322_j26242250179179_3_alg».proof.Proof.RunNamed
import proofs.«402322_j26242250179179_3_alg».proof.Proof.KerRun
import proofs.«402322_j26242250179179_3_alg».proof.Proof.RefNodes
import proofs.«402322_j26242250179179_3_alg».proof.Proof.RefScore
import proofs.«402322_j26242250179179_3_alg».proof.Proof.PreRange
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the score of every edge over the specification's node
    features: the kernel program by its two regions (the feature table, then the scores block by block), the reference by its
    two layers read index by index and its two row gathers at the edge's end points. -/
theorem algebraic : Cert.algebraic_KernelIdeal_ReferenceIdeal := by
  intro m ρ m' ρ' hpre hagree
  have hE : ∀ (c : Dev Cert.KernelIdeal.nD) (k : Cert.KernelIdeal.S2x200000.Idx),
      0 ≤ (Cert.KernelIdeal.KerRun.eA m c k).toInt ∧ (Cert.KernelIdeal.KerRun.eA m c k).toInt < 1024 :=
    fun c => Cert.PreRange.range_of_pre _ _ _ _ _ _ _ (hpre c)
  refine ⟨fun c => Cert.KernelIdeal.KerRun.result m c, ?_, ?_⟩
  · exact (θ_run Cert.KernelIdeal.defs _ _).mono
      (fun r h c => ⟨(h c).1.trans (Cert.KernelIdeal.KerRun.W9_result m ρ c (hE c)), (h c).2⟩)
      (Cert.KernelIdeal.RunNamed.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v112_eq]
    obtain ⟨a0, a1, a2, a3, a4, a5, a6⟩ := hagree c
    rw [a0, a1, a2, a3, a4, a5, a6]
    funext o
    obtain ⟨e, rfl⟩ : ∃ e : Fin 200000, o = ix1 e := ⟨o 0, eq_ix1 o⟩
    rw [Cert.RefScore.ref_score _ _ _ _ _ _ _ (hE c) e]
    have hf : ∀ (z : (⟨Cert.ReferenceIdeal.S1024x128, .f32⟩ : BufTy).Contents (Elt Ideal))
        (W1 : (⟨Cert.ReferenceIdeal.S128x128, .f32⟩ : BufTy).Contents (Elt Ideal))
        (b1 : (⟨Cert.ReferenceIdeal.S128, .f32⟩ : BufTy).Contents (Elt Ideal))
        (W2 : (⟨Cert.ReferenceIdeal.S128x128, .f32⟩ : BufTy).Contents (Elt Ideal))
        (b2 : (⟨Cert.ReferenceIdeal.S128, .f32⟩ : BufTy).Contents (Elt Ideal)),
        (fun (i : Fin 1024) (d : Fin 128) => Cert.ReferenceIdeal.Read.val_main_v83 (F := Ideal) z W1 b1 W2 b2 (ix2 i d))
          = Cert.Spec.feat (fun i k => z (ix2 i k)) (fun k d => W1 (ix2 k d)) (fun d => b1 (ix1 d))
              (fun k d => W2 (ix2 k d)) (fun d => b2 (ix1 d)) :=
      fun z W1 b1 W2 b2 => funext fun i => funext fun d => Cert.RefNodes.ref_feat z W1 b1 W2 b2 i d
    rw [hf]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
